-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x64 : Shape := ⟨2, ![96, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v33 : IVec S_ 1) : IVec S_ 1 :=
  let main_v34 : IVec S1x800000 32 := (extractStridedSlice S1x800000 ![0, 0] · slices_S2x800000_S1x800000_0_0) main_arg1
  let main_v35 : IVec S800000 32 := shapeCast S800000 main_v34 shapeCasts_S1x800000_S800000
  let main_c_12 : IVec S_ 32 := constantI S_ 32 0#32
  let main_v36 : IVec S800000 32 := broadcastInDim S800000 ![] bcast_S_S800000 main_c_12
  let main_v37 : IVec S800000 1 := cmpi .sge main_v35 main_v36
  let main_c_13 : IVec S_ 1 := constantI S_ 1 1#1
  let main_v38 : IVec S_ 1 := (fun x v => Host.reduce IntOp.andi x v reducesTo_S800000_S_d0 h_S_) main_v37 main_c_13
  let main_v39 : IVec S_ 1 := andi main_v33 main_v38
  let main_v40 : IVec S1x800000 32 := (extractStridedSlice S1x800000 ![0, 0] · slices_S2x800000_S1x800000_0_0) main_arg1
  let main_v41 : IVec S800000 32 := shapeCast S800000 main_v40 shapeCasts_S1x800000_S800000
  let main_c_14 : IVec S_ 32 := constantI S_ 32 50000#32
  let main_v42 : IVec S800000 32 := broadcastInDim S800000 ![] bcast_S_S800000 main_c_14
  let main_v43 : IVec S800000 1 := cmpi .slt main_v41 main_v42
  let main_c_15 : IVec S_ 1 := constantI S_ 1 1#1
  let main_v44 : IVec S_ 1 := (fun x v => Host.reduce IntOp.andi x v reducesTo_S800000_S_d0 h_S_) main_v43 main_c_15
  let main_v45 : IVec S_ 1 := andi main_v39 main_v44
  main_v45

def fn_part1 {F : FTy → Type} [FloatOps F] (main_arg1 : IVec S2x800000 32) (main_arg5 : FVec F S96 .f32) (main_arg6 : FVec F S96x64 .f32) (main_arg7 : FVec F S64 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x64 .f32 := Host.absf main_arg6
  let main_cst_8 : FVec F S_ .f32 := constant S_ .f32 0x7F800000#32
  let main_v25 : FVec F S96x64 .f32 := broadcastInDim S96x64 ![] bcast_S_S96x64 main_cst_8
  let main_v26 : IVec S96x64 1 := cmpf .olt main_v24 main_v25
  let main_c_9 : IVec S_ 1 := constantI S_ 1 1#1
  let main_v27 : IVec S_ 1 := (fun x v => Host.reduce IntOp.andi x v reducesTo_S96x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S50000x96 .f32) (main_arg1 : IVec S2x800000 32) (main_arg2 : FVec F S96x96 .f32) (main_arg3 : FVec F S96 .f32) (main_arg4 : FVec F S96x96 .f32) (main_arg5 : FVec F S96 .f32) (main_arg6 : FVec F S96x64 .f32) (main_arg7 : FVec F S64 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg1 main_arg5 main_arg6 main_arg7 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x96 : Shape := ⟨2, ![5000, 96]⟩
abbrev S1 : Shape := ⟨1, ![1]⟩
abbrev S1x1 : Shape := ⟨2, ![1, 1]⟩
abbrev S800000x96 : Shape := ⟨2, ![800000, 96]⟩
abbrev S1x96 : Shape := ⟨2, ![1, 96]⟩
abbrev S5000x1 : Shape := ⟨2, ![5000, 1]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 140
  | .vmem => 34
  | .smem => 0
  | _ => 0

abbrev hbmTy0_0 (i : Nat) : BufTy := match i % 128 with
  | 0 => ⟨S50000x96, .f32⟩
  | 1 => ⟨S2x800000, .i32⟩
  | 2 => ⟨S96x96, .f32⟩
  | 3 => ⟨S96, .f32⟩
  | 4 => ⟨S96x96, .f32⟩
  | 5 => ⟨S96, .f32⟩
  | 6 => ⟨S96x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .f32⟩
  | 24 => ⟨S50000, .f32⟩
  | 25 => ⟨S50000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S50000x96, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S1, .i32⟩
  | 56 => ⟨S_, .i32⟩
  | 57 => ⟨S800000x1, .i32⟩
  | 58 => ⟨S800000x1, .i1⟩
  | 59 => ⟨S1x1, .i32⟩
  | 60 => ⟨S800000x1, .i32⟩
  | 61 => ⟨S800000x1, .i1⟩
  | 62 => ⟨S800000x1, .i1⟩
  | 63 => ⟨S_, .i1⟩
  | 64 => ⟨S800000, .i1⟩
  | 65 => ⟨S800000x96, .f32⟩
  | 66 => ⟨S800000x96, .i1⟩
  | 67 => ⟨S_, .f32⟩
  | 68 => ⟨S800000x96, .f32⟩
  | 69 => ⟨S800000x96, .f32⟩
  | 70 => ⟨S800000x96, .f32⟩
  | 71 => ⟨S800000x96, .f32⟩
  | 72 => ⟨S_, .f32⟩
  | 73 => ⟨S50000x96, .f32⟩
  | 74 => ⟨S800000x1, .i32⟩
  | 75 => ⟨S50000x96, .f32⟩
  | 76 => ⟨S1x96, .f32⟩
  | 77 => ⟨S50000x96, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S1, .i32⟩
  | 87 => ⟨S_, .i32⟩
  | 88 => ⟨S800000x1, .i32⟩
  | 89 => ⟨S800000x1, .i1⟩
  | 90 => ⟨S1x1, .i32⟩
  | 91 => ⟨S800000x1, .i32⟩
  | 92 => ⟨S800000x1, .i1⟩
  | 93 => ⟨S800000x1, .i1⟩
  | 94 => ⟨S_, .i1⟩
  | 95 => ⟨S800000, .i1⟩
  | 96 => ⟨S800000x96, .f32⟩
  | 97 => ⟨S800000x96, .i1⟩
  | 98 => ⟨S_, .f32⟩
  | 99 => ⟨S800000x96, .f32⟩
  | 100 => ⟨S800000x96, .f32⟩
  | 101 => ⟨S800000x96, .f32⟩
  | 102 => ⟨S800000x96, .f32⟩
  | 103 => ⟨S_, .f32⟩
  | 104 => ⟨S50000x96, .f32⟩
  | 105 => ⟨S800000x1, .i32⟩
  | 106 => ⟨S50000x96, .f32⟩
  | 107 => ⟨S1x96, .f32⟩
  | 108 => ⟨S50000x64, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S1, .i32⟩
  | 118 => ⟨S_, .i32⟩
  | 119 => ⟨S800000x1, .i32⟩
  | 120 => ⟨S800000x1, .i1⟩
  | 121 => ⟨S1x1, .i32⟩
  | 122 => ⟨S800000x1, .i32⟩
  | 123 => ⟨S800000x1, .i1⟩
  | 124 => ⟨S800000x1, .i1⟩
  | 125 => ⟨S_, .i1⟩
  | 126 => ⟨S800000, .i1⟩
  | 127 => ⟨S800000x64, .f32⟩
  | _ => ⟨S50000x96, .f32⟩

abbrev hbmTy0_1 (i : Nat) : BufTy := match i % 128 with
  | 0 => ⟨S800000x64, .i1⟩
  | 1 => ⟨S_, .f32⟩
  | 2 => ⟨S800000x64, .f32⟩
  | 3 => ⟨S800000x64, .f32⟩
  | 4 => ⟨S800000x64, .f32⟩
  | 5 => ⟨S800000x64, .f32⟩
  | 6 => ⟨S_, .f32⟩
  | 7 => ⟨S50000x64, .f32⟩
  | 8 => ⟨S800000x1, .i32⟩
  | 9 => ⟨S50000x64, .f32⟩
  | 10 => ⟨S1x64, .f32⟩
  | 11 => ⟨S50000x64, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S5000x1, .f32⟩
  | .local _ .vmem, ⟨10, _⟩ => ⟨S5000x1, .f32⟩
  | .local _ .vmem, ⟨11, _⟩ => ⟨S1x96, .f32⟩
  | .local _ .vmem, ⟨12, _⟩ => ⟨S96x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S5000x96, .f32⟩
  | .local _ .vmem, ⟨17, _⟩ => ⟨S5000x96, .f32⟩
  | .local _ .vmem, ⟨18, _⟩ => ⟨S5000x96, .f32⟩
  | .local _ .vmem, ⟨19, _⟩ => ⟨S5000x1, .f32⟩
  | .local _ .vmem, ⟨20, _⟩ => ⟨S5000x1, .f32⟩
  | .local _ .vmem, ⟨21, _⟩ => ⟨S1x96, .f32⟩
  | .local _ .vmem, ⟨22, _⟩ => ⟨S96x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x1, .f32⟩
  | .local _ .vmem, ⟨30, _⟩ => ⟨S5000x1, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_c : Ref sig .tc := ⟨.hbm, 47, rfl⟩
abbrev main_call0_v0 : Ref sig .tc := ⟨.hbm, 48, rfl⟩
abbrev main_call0_v1 : Ref sig .tc := ⟨.hbm, 49, rfl⟩
abbrev main_call0_c_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_c_1 : Ref sig .tc := ⟨.hbm, 55, rfl⟩
abbrev main_call0_c_2 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_3 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_call0_cst : Ref sig .tc := ⟨.hbm, 67, rfl⟩
abbrev main_call0_v15 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_6 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_call1_c : Ref sig .tc := ⟨.hbm, 78, rfl⟩
abbrev main_call1_v0 : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_c_1 : Ref sig .tc := ⟨.hbm, 86, rfl⟩
abbrev main_call1_c_2 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_3 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_call1_cst : Ref sig .tc := ⟨.hbm, 98, rfl⟩
abbrev main_call1_v15 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_cst_7 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_call2_c : Ref sig .tc := ⟨.hbm, 109, rfl⟩
abbrev main_call2_v0 : Ref sig .tc := ⟨.hbm, 110, rfl⟩
abbrev main_call2_v1 : Ref sig .tc := ⟨.hbm, 111, rfl⟩
abbrev main_call2_c_0 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_c_1 : Ref sig .tc := ⟨.hbm, 117, rfl⟩
abbrev main_call2_c_2 : Ref sig .tc := ⟨.hbm, 118, rfl⟩
abbrev main_call2_v6 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_c_3 : Ref sig .tc := ⟨.hbm, 125, rfl⟩
abbrev main_call2_v12 : Ref sig .tc := ⟨.hbm, 126, rfl⟩
abbrev main_call2_v13 : Ref sig .tc := ⟨.hbm, 127, rfl⟩
abbrev main_call2_v14 : Ref sig .tc := ⟨.hbm, 128, rfl⟩
abbrev main_call2_cst : Ref sig .tc := ⟨.hbm, 129, rfl⟩
abbrev main_call2_v15 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_cst_8 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S96x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x96_0 : S800000.BroadcastsInDim S800000x96 (![0] : Fin 1 → Fin S800000x96.rank)
  bcast_S_S800000x96 : S_.BroadcastsInDim S800000x96 (![] : Fin 0 → Fin S800000x96.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S96_S1x96 : S96.ShapeCasts S1x96
  shapeCasts_S5000x96_S5000x96 : S5000x96.ShapeCasts S5000x96
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S96x64_S96x64_0_0 : ∀ a, (![0, 0] : Fin 2 → Nat) a + S96x64.size a ≤ S96x64.size a
  h_S96x64 : 0 < S96x64.numel
  inb_S5000x64_S5000x64_0_0 : ∀ a, (![0, 0] : Fin 2 → Nat) a + S5000x64.size a ≤ S5000x64.size a
  h_S5000x64 : 0 < S5000x64.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x96_S96x96_S5000x96_1_0_0_1_n_n_wf : DotDims.WF S5000x96 S96x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x64_S5000x64_1_0_0_1_n_n_wf : DotDims.WF S5000x96 S96x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x96.size a ≤ S96x96.size a
  hwx1_4 : ∀ i : grid1.Coords, EltTy.bits .f32 = 32 ∨ (Rect.block (s := S96x96) S96x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S50000x96.size a
  hwx1_5 : ∀ i : grid1.Coords, EltTy.bits .f32 = 32 ∨ (Rect.block (s := S50000x96) S5000x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x96.size a ≤ S50000x96.size a
  hwx2_1 : ∀ i : grid2.Coords, EltTy.bits .f32 = 32 ∨ (Rect.block (s := S50000x96) S5000x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96x64.size a ≤ S96x64.size a
  hwx2_4 : ∀ i : grid2.Coords, EltTy.bits .f32 = 32 ∨ (Rect.block (s := S96x64) S96x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S96x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S5000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S96x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 162
  | .vmem => 0
  | .smem => 0
  | _ => 0

abbrev hbmTy0_0 (i : Nat) : BufTy := match i % 128 with
  | 0 => ⟨S50000x96, .f32⟩
  | 1 => ⟨S2x800000, .i32⟩
  | 2 => ⟨S96x96, .f32⟩
  | 3 => ⟨S96, .f32⟩
  | 4 => ⟨S96x96, .f32⟩
  | 5 => ⟨S96, .f32⟩
  | 6 => ⟨S96x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .f32⟩
  | 24 => ⟨S50000x96, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x96, .f32⟩
  | 53 => ⟨S800000x1, .f32⟩
  | 54 => ⟨S800000x96, .f32⟩
  | 55 => ⟨S800000x96, .f32⟩
  | 56 => ⟨S_, .f32⟩
  | 57 => ⟨S50000x96, .f32⟩
  | 58 => ⟨S800000x1, .i32⟩
  | 59 => ⟨S50000x96, .f32⟩
  | 60 => ⟨S50000, .f32⟩
  | 61 => ⟨S50000x1, .f32⟩
  | 62 => ⟨S50000x96, .f32⟩
  | 63 => ⟨S50000x96, .f32⟩
  | 64 => ⟨S50000x96, .f32⟩
  | 65 => ⟨S1x96, .f32⟩
  | 66 => ⟨S50000x96, .f32⟩
  | 67 => ⟨S50000x96, .f32⟩
  | 68 => ⟨S_, .f32⟩
  | 69 => ⟨S50000x96, .f32⟩
  | 70 => ⟨S50000x96, .f32⟩
  | 71 => ⟨S50000x96, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000, .f32⟩
  | 90 => ⟨S800000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x96, .f32⟩
  | 100 => ⟨S800000x1, .f32⟩
  | 101 => ⟨S800000x96, .f32⟩
  | 102 => ⟨S800000x96, .f32⟩
  | 103 => ⟨S_, .f32⟩
  | 104 => ⟨S50000x96, .f32⟩
  | 105 => ⟨S800000x1, .i32⟩
  | 106 => ⟨S50000x96, .f32⟩
  | 107 => ⟨S50000, .f32⟩
  | 108 => ⟨S50000x1, .f32⟩
  | 109 => ⟨S50000x96, .f32⟩
  | 110 => ⟨S50000x96, .f32⟩
  | 111 => ⟨S50000x96, .f32⟩
  | 112 => ⟨S1x96, .f32⟩
  | 113 => ⟨S50000x96, .f32⟩
  | 114 => ⟨S50000x96, .f32⟩
  | 115 => ⟨S_, .f32⟩
  | 116 => ⟨S50000x96, .f32⟩
  | 117 => ⟨S50000x96, .f32⟩
  | 118 => ⟨S50000x64, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000, .f32⟩
  | _ => ⟨S50000x96, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000, .f32⟩
  | 9 => ⟨S800000, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x64, .f32⟩
  | 19 => ⟨S800000x1, .f32⟩
  | 20 => ⟨S800000x64, .f32⟩
  | 21 => ⟨S800000x64, .f32⟩
  | 22 => ⟨S_, .f32⟩
  | 23 => ⟨S50000x64, .f32⟩
  | 24 => ⟨S800000x1, .i32⟩
  | 25 => ⟨S50000x64, .f32⟩
  | 26 => ⟨S50000, .f32⟩
  | 27 => ⟨S50000x1, .f32⟩
  | 28 => ⟨S50000x64, .f32⟩
  | 29 => ⟨S50000x64, .f32⟩
  | 30 => ⟨S50000x64, .f32⟩
  | 31 => ⟨S1x64, .f32⟩
  | 32 => ⟨S50000x64, .f32⟩
  | 33 => ⟨S50000x64, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_call1_cst : Ref sig .tc := ⟨.hbm, 115, rfl⟩
abbrev main_call1_v0 : Ref sig .tc := ⟨.hbm, 116, rfl⟩
abbrev main_v87 : Ref sig .tc := ⟨.hbm, 117, rfl⟩
abbrev main_v88 : Ref sig .tc := ⟨.hbm, 118, rfl⟩
abbrev main_c_16 : Ref sig .tc := ⟨.hbm, 119, rfl⟩
abbrev main_v89 : Ref sig .tc := ⟨.hbm, 120, rfl⟩
abbrev main_v90 : Ref sig .tc := ⟨.hbm, 121, rfl⟩
abbrev main_c_17 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_18 : Ref sig .tc := ⟨.hbm, 128, rfl⟩
abbrev main_v96 : Ref sig .tc := ⟨.hbm, 129, rfl⟩
abbrev main_v97 : Ref sig .tc := ⟨.hbm, 130, rfl⟩
abbrev main_c_19 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_c_20 : Ref sig .tc := ⟨.hbm, 138, rfl⟩
abbrev main_v104 : Ref sig .tc := ⟨.hbm, 139, rfl⟩
abbrev main_v105 : Ref sig .tc := ⟨.hbm, 140, rfl⟩
abbrev main_c_21 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_22 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x96_S96x96_S50000x96_1_0_0_1_n_n_wf : DotDims.WF S50000x96 S96x96 S50000x96 [1] [0] [0] [1] [] []
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x64_S50000x64_1_0_0_1_n_n_wf : DotDims.WF S50000x96 S96x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.PreIdx.lean ====
/-
  The index-range part of the precondition, read back.

  The precondition ends in two conjuncts over the source row of the edge list: every source id is at least 0 and below 50000
  (signed).  Each is an `and`-reduction of a word comparison over the 800000 ids from the constant 1, and the claim's hypothesis
  says the whole conjunction is 1: so each reduction is 1, and each id passes both comparisons.
-/
import proofs.«405272_j62852551410248_3_alg».proof.Pre_finite_inputs
import Idealize.ShloMosaic.Lib.ReduceAll
import Idealize.ShloMosaic.Lib.ValueIdx

namespace Cert.PreIdx

open Idealize.ShloMosaic Cert.Pre_finite_inputs

variable [Facts] {F : FTy → Type} [FloatOps F]

/-- The source row of the edge list: row 0 of the 2 × 800000 array, as a vector. -/
def srcRow (a1 : IVec S2x800000 32) : IVec S800000 32 :=
  shapeCast S800000 ((extractStridedSlice S1x800000 ![0, 0] · Facts.slices_S2x800000_S1x800000_0_0) a1) Facts.shapeCasts_S1x800000_S800000

instance : Subsingleton S_.Idx := ⟨fun a b => funext fun d => d.elim0⟩

/-- Under the precondition every source id is in [0, 50000), signed. -/
theorem src_in_range (a0 : FVec F S50000x96 .f32) (a1 : IVec S2x800000 32) (a2 : FVec F S96x96 .f32) (a3 : FVec F S96 .f32)
    (a4 : FVec F S96x96 .f32) (a5 : FVec F S96 .f32) (a6 : FVec F S96x64 .f32) (a7 : FVec F S64 .f32)
    (h : fn (F := F) a0 a1 a2 a3 a4 a5 a6 a7 = fun _ => 1#1) (e : S800000.Idx) :
    IntOp.cmpi .sge (srcRow a1 e) 0#32 = 1#1 ∧ IntOp.cmpi .slt (srcRow a1 e) 50000#32 = 1#1 := by
  have h0 := congrFun h ValueIdx.ix0
  dsimp only [fn, fn_part1, fn_part2] at h0
  -- the conjunction of all conjuncts is 1: so are its last two members
  obtain ⟨h1, hlt⟩ := IntOp.andi_eq_one.1 h0
  obtain ⟨-, hge⟩ := IntOp.andi_eq_one.1 h1
  exact ⟨Host.reduce_andi_all _ _ _ _ _ hge e, Host.reduce_andi_all _ _ _ _ _ hlt e⟩

end Cert.PreIdx
-- ==== Proof.LibTakeFill.lean ====
/-
  A row gather with a fill for out-of-range rows, read where every row index is in range.

  `take` with the fill mode prints as: the index column `I` (the row ids, a negative id moved up by the row count `N`), a mask
  "0 ≤ I ≤ N − 1" reduced by `and` along the column's unit axis, and a select between the gathered rows and the fill.
  Where every id `s e` satisfies 0 ≤ s e < N (signed), no id is moved, every mask bit is 1, and the select returns the
  gathered rows.  The row count `N` and the last row `hi` are any two words with `N = hi + 1` as signed integers.
  Also here: a reshape of a vector to a column or to a row is the `broadcast_in_dim` to that shape.
-/
import Idealize.ShloMosaic.PureOps
import Idealize.ShloMosaic.Lib.ReduceAll
import Idealize.ShloMosaic.Lib.Pipeline.Value
import Idealize.ShloMosaic.Lib.ValueIdx

namespace Cert.LibTakeFill

open Idealize.ShloMosaic

abbrev S0 : Shape := ⟨0, ![]⟩
abbrev S1 : Shape := ⟨1, ![1]⟩
abbrev S11 : Shape := ⟨2, ![1, 1]⟩

variable {E C : Nat}

/-- The index column a `take` builds from the ids `s`: an id below zero is moved up by `N`, then the ids stand as a column. -/
def idxCol (N : BitVec 32) (s : IVec ⟨1, ![E]⟩ 32) (hb0 : S0.BroadcastsInDim ⟨1, ![E]⟩ (![] : Fin 0 → Fin 1))
    (hcol : (⟨1, ![E]⟩ : Shape).BroadcastsInDim ⟨2, ![E, 1]⟩ ![0]) : IVec ⟨2, ![E, 1]⟩ 32 :=
  broadcastInDim ⟨2, ![E, 1]⟩ ![0] hcol
    (select (cmpi .slt s (broadcastInDim ⟨1, ![E]⟩ ![] hb0 (constantI S0 32 0#32)))
      (addi s (broadcastInDim ⟨1, ![E]⟩ ![] hb0 (constantI S0 32 N))) s)

/-- The mask a `take` builds over that column: "0 ≤ I and I ≤ hi", reduced by `and` along the unit axis. -/
def inRangeMask (N hi : BitVec 32) (s : IVec ⟨1, ![E]⟩ 32) (hb0 : S0.BroadcastsInDim ⟨1, ![E]⟩ (![] : Fin 0 → Fin 1))
    (hcol : (⟨1, ![E]⟩ : Shape).BroadcastsInDim ⟨2, ![E, 1]⟩ ![0])
    (hb01 : S0.BroadcastsInDim ⟨2, ![E, 1]⟩ (![] : Fin 0 → Fin 2))
    (h1 : S1.BroadcastsInDim S11 ![1]) (h11 : S11.BroadcastsInDim ⟨2, ![E, 1]⟩ ![0, 1])
    (hred : (⟨2, ![E, 1]⟩ : Shape).ReducesTo [1] ⟨1, ![E]⟩) (h0 : 0 < S0.numel) : IVec ⟨1, ![E]⟩ 1 :=
  Host.reduce IntOp.andi
    (andi (cmpi .sge (idxCol N s hb0 hcol) (broadcastInDim ⟨2, ![E, 1]⟩ ![] hb01 (constantI S0 32 0#32)))
          (cmpi .sle (idxCol N s hb0 hcol) (broadcastInDim ⟨2, ![E, 1]⟩ ![0, 1] h11 (broadcastInDim S11 ![1] h1 (constantI S1 32 hi)))))
    (constantI S0 1 1#1) hred h0

/-- A left fold by `and` that starts at 1 and meets only 1s is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A word in [0, N) signed is not below zero and is at most `hi = N − 1`. -/
theorem word_in_range (N hi : BitVec 32) (hN : N.toInt = hi.toInt + 1) (w : BitVec 32)
    (h0 : IntOp.cmpi .sge w 0#32 = 1#1) (h1 : IntOp.cmpi .slt w N = 1#1) :
    IntOp.cmpi .slt w 0#32 = 0#1 ∧ IntOp.cmpi .sle w hi = 1#1 := by
  rw [IntOp.cmpi_sge] at h0
  rw [IntOp.cmpi_slt] at h1
  have z0 : (0#32 : BitVec 32).toInt = 0 := by decide
  rw [z0] at h0
  refine ⟨ValueIdx.eq_zero_of_ne_one fun h => ?_, ?_⟩
  · rw [IntOp.cmpi_slt, z0] at h
    omega
  · rw [IntOp.cmpi_sle]
    omega

/-- The row of the ids that the column entry `i` reads. -/
abbrev rowOf (i : (⟨2, ![E, 1]⟩ : Shape).Idx) : (⟨1, ![E]⟩ : Shape).Idx := ValueIdx.ix1 ⟨(i 0).val, ValueIdx.idx2_lt0 i⟩

/-- Where the id is in range it is not moved: the column entry is the id itself. -/
theorem idxCol_apply (N hi : BitVec 32) (hN : N.toInt = hi.toInt + 1) (s : IVec ⟨1, ![E]⟩ 32)
    (hs : ∀ e, IntOp.cmpi .sge (s e) 0#32 = 1#1 ∧ IntOp.cmpi .slt (s e) N = 1#1)
    (hb0 hcol) (i : (⟨2, ![E, 1]⟩ : Shape).Idx) :
    idxCol (E := E) N s hb0 hcol i = s (rowOf i) := by
  unfold idxCol
  refine (broadcastInDim_apply _ hcol _ i (rowOf i) (fun a => match a with
    | ⟨0, _⟩ => by
      have h0 : (i 0).val < E := ValueIdx.idx2_lt0 i
      show (i 0).val = if E = 1 then 0 else (i 0).val
      split <;> omega)).trans ?_
  show Scalar.select (IntOp.cmpi .slt (s (rowOf i)) 0#32) (IntOp.addi (s (rowOf i)) N) (s (rowOf i)) = s (rowOf i)
  rw [(word_in_range N hi hN _ (hs (rowOf i)).1 (hs (rowOf i)).2).1, ValueIdx.select_zero]

/-- Where every id is in [0, N) signed, every bit of the mask "0 ≤ I ≤ hi" is 1. -/
theorem inRangeMask_eq_one (N hi : BitVec 32) (hN : N.toInt = hi.toInt + 1) (s : IVec ⟨1, ![E]⟩ 32)
    (hs : ∀ e, IntOp.cmpi .sge (s e) 0#32 = 1#1 ∧ IntOp.cmpi .slt (s e) N = 1#1)
    (hb0 hcol hb01 h1 h11 hred h0) (e : (⟨1, ![E]⟩ : Shape).Idx) :
    inRangeMask (E := E) N hi s hb0 hcol hb01 h1 h11 hred h0 e = 1#1 := by
  unfold inRangeMask
  rw [Host.reduce_eq_foldl]
  refine foldl_andi_one _ (fun i => ?_) _
  show IntOp.andi (IntOp.cmpi .sge (idxCol (E := E) N s hb0 hcol i) 0#32)
      (IntOp.cmpi .sle (idxCol (E := E) N s hb0 hcol i) hi) = 1#1
  rw [idxCol_apply N hi hN s hs hb0 hcol i, (hs (rowOf i)).1, (word_in_range N hi hN _ (hs (rowOf i)).1 (hs (rowOf i)).2).2]
  rfl

/-- THE READ: with every id in [0, N) the select between the gathered rows `G` and the fill `Z` under the
    row mask is `G`. -/
theorem select_mask_eq {α : Type} (N hi : BitVec 32) (hN : N.toInt = hi.toInt + 1) (s : IVec ⟨1, ![E]⟩ 32)
    (hs : ∀ e, IntOp.cmpi .sge (s e) 0#32 = 1#1 ∧ IntOp.cmpi .slt (s e) N = 1#1)
    (hb0 hcol hb01 h1 h11 hred h0)
    (hm : (⟨1, ![E]⟩ : Shape).BroadcastsInDim ⟨2, ![E, C]⟩ ![0])
    (G Z : (⟨2, ![E, C]⟩ : Shape).Idx → α) :
    select (broadcastInDim ⟨2, ![E, C]⟩ ![0] hm (inRangeMask (E := E) N hi s hb0 hcol hb01 h1 h11 hred h0)) G Z = G := by
  funext i
  have hi' : (i 0).val < E := ValueIdx.idx2_lt0 i
  rw [ValueIdx.select_apply,
    broadcastInDim_apply ![0] hm _ i (ValueIdx.ix1 ⟨(i 0).val, hi'⟩) (fun a => match a with
      | ⟨0, _⟩ => by
        show (i 0).val = if E = 1 then 0 else (i 0).val
        split <;> omega),
    inRangeMask_eq_one N hi hN s hs, ValueIdx.select_one]

/-- A reshape of a vector to a column is its `broadcast_in_dim` along axis 0. -/
theorem shapeCast_col_eq_bcast {α : Type} {n : Nat} (x : (⟨1, ![n]⟩ : Shape).Idx → α)
    (hc : (⟨1, ![n]⟩ : Shape).ShapeCasts ⟨2, ![n, 1]⟩) (hb : (⟨1, ![n]⟩ : Shape).BroadcastsInDim ⟨2, ![n, 1]⟩ ![0]) :
    shapeCast ⟨2, ![n, 1]⟩ x hc = broadcastInDim ⟨2, ![n, 1]⟩ ![0] hb x := by
  funext j
  have h0 : (j 0).val < n := ValueIdx.idx2_lt0 j
  have h1 : (j 1).val < 1 := ValueIdx.idx2_lt1 j
  -- the column entry (r, 0) stands at row-major position r * 1 + 0 = r, the position of entry r of the vector
  rw [shapeCast_apply x hc j (ValueIdx.ix1 ⟨(j 0).val, h0⟩) (by
    rw [Shape.rowMajor_val_one, Shape.rowMajor_val_two]
    show (j 0).val = (j 0).val * 1 + (j 1).val
    omega)]
  exact (broadcastInDim_apply ![0] hb x j (ValueIdx.ix1 ⟨(j 0).val, h0⟩) (fun a => match a with
    | ⟨0, _⟩ => by
      show (j 0).val = if n = 1 then 0 else (j 0).val
      split <;> omega)).symm

/-- A reshape of a vector to a row is its `broadcast_in_dim` along axis 1. -/
theorem shapeCast_row_eq_bcast {α : Type} {n : Nat} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  have h0 : (j 0).val < 1 := ValueIdx.idx2_lt0 j
  have h1 : (j 1).val < n := ValueIdx.idx2_lt1 j
  -- the row entry (0, c) stands at row-major position 0 * n + c = c, the position of entry c of the vector
  rw [shapeCast_apply x hc j (ValueIdx.ix1 ⟨(j 1).val, h1⟩) (by
    rw [Shape.rowMajor_val_one, Shape.rowMajor_val_two]
    show (j 1).val = (j 0).val * n + (j 1).val
    have : (j 0).val = 0 := by omega
    rw [this]
    omega)]
  exact (broadcastInDim_apply ![1] hb x j (ValueIdx.ix1 ⟨(j 1).val, h1⟩) (fun a => match a with
    | ⟨0, _⟩ => by
      show (j 1).val = if n = 1 then 0 else (j 1).val
      split <;> omega)).symm

end Cert.LibTakeFill
-- ==== Proof.KCarry.lean ====
/-
  Buffers that pass a boundary of the encoder untouched.

  The run of the kernel's program is a fold through eleven segments: a stretch of host operations rewrites only the buffers its
  operations write, and a tiled region rewrites only the arrays its windows stage.  Each lemma below says that one buffer
  (the source or destination ids, the degree column, the edge coefficients, an earlier layer's output, a weight or a bias) is not
  among those, so that its contents after the segment are its contents before it.  The argument arrays after the first stretch
  are the launch contents.
-/
import proofs.«405272_j62852551410248_3_alg».proof.Proof.Gen.KernelIdeal.Frame
import Idealize.ShloMosaic.Lib.StableHlo.Run

noncomputable section

namespace Cert.KernelIdeal.Carry

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Two boundary contents agree at a buffer of core `c`. -/
abbrev Same (A B : Dev nD → Valuation τ sig (Elt F)) (c : Dev nD) (b : Ref sig .tc) : Prop :=
  A c (Proc.devRef .tc b) = B c (Proc.devRef .tc b)

/-! ## The first stretch writes no argument -/

theorem first_arg0 (c : Dev nD) : W1 m ρ c (Proc.devRef .tc main_arg0) = m ((c : Thread nD τ).loc main_arg0) := by
  show StableHlo.after hostOps0 (W0 m ρ c) (Proc.devRef .tc main_arg0) = _; after_results_simp
theorem first_arg1 (c : Dev nD) : W1 m ρ c (Proc.devRef .tc main_arg1) = m ((c : Thread nD τ).loc main_arg1) := by
  show StableHlo.after hostOps0 (W0 m ρ c) (Proc.devRef .tc main_arg1) = _; after_results_simp
theorem first_arg2 (c : Dev nD) : W1 m ρ c (Proc.devRef .tc main_arg2) = m ((c : Thread nD τ).loc main_arg2) := by
  show StableHlo.after hostOps0 (W0 m ρ c) (Proc.devRef .tc main_arg2) = _; after_results_simp
theorem first_arg3 (c : Dev nD) : W1 m ρ c (Proc.devRef .tc main_arg3) = m ((c : Thread nD τ).loc main_arg3) := by
  show StableHlo.after hostOps0 (W0 m ρ c) (Proc.devRef .tc main_arg3) = _; after_results_simp
theorem first_arg4 (c : Dev nD) : W1 m ρ c (Proc.devRef .tc main_arg4) = m ((c : Thread nD τ).loc main_arg4) := by
  show StableHlo.after hostOps0 (W0 m ρ c) (Proc.devRef .tc main_arg4) = _; after_results_simp
theorem first_arg5 (c : Dev nD) : W1 m ρ c (Proc.devRef .tc main_arg5) = m ((c : Thread nD τ).loc main_arg5) := by
  show StableHlo.after hostOps0 (W0 m ρ c) (Proc.devRef .tc main_arg5) = _; after_results_simp
theorem first_arg6 (c : Dev nD) : W1 m ρ c (Proc.devRef .tc main_arg6) = m ((c : Thread nD τ).loc main_arg6) := by
  show StableHlo.after hostOps0 (W0 m ρ c) (Proc.devRef .tc main_arg6) = _; after_results_simp
theorem first_arg7 (c : Dev nD) : W1 m ρ c (Proc.devRef .tc main_arg7) = m ((c : Thread nD τ).loc main_arg7) := by
  show StableHlo.after hostOps0 (W0 m ρ c) (Proc.devRef .tc main_arg7) = _; after_results_simp

/-! ## Across the first region (the product x·W0): only x, W0 and the product's array are staged -/

theorem r0_v1 (c : Dev nD) : Same (W2 m ρ) (W1 m ρ) c main_v1 := W2_of_ne m ρ c main_v1 (by decide)
theorem r0_v3 (c : Dev nD) : Same (W2 m ρ) (W1 m ρ) c main_v3 := W2_of_ne m ρ c main_v3 (by decide)
theorem r0_v13 (c : Dev nD) : Same (W2 m ρ) (W1 m ρ) c main_v13 := W2_of_ne m ρ c main_v13 (by decide)
theorem r0_v29 (c : Dev nD) : Same (W2 m ρ) (W1 m ρ) c main_v29 := W2_of_ne m ρ c main_v29 (by decide)
theorem r0_arg3 (c : Dev nD) : Same (W2 m ρ) (W1 m ρ) c main_arg3 := W2_of_ne m ρ c main_arg3 (by decide)
theorem r0_arg4 (c : Dev nD) : Same (W2 m ρ) (W1 m ρ) c main_arg4 := W2_of_ne m ρ c main_arg4 (by decide)
theorem r0_arg5 (c : Dev nD) : Same (W2 m ρ) (W1 m ρ) c main_arg5 := W2_of_ne m ρ c main_arg5 (by decide)
theorem r0_arg6 (c : Dev nD) : Same (W2 m ρ) (W1 m ρ) c main_arg6 := W2_of_ne m ρ c main_arg6 (by decide)
theorem r0_arg7 (c : Dev nD) : Same (W2 m ρ) (W1 m ρ) c main_arg7 := W2_of_ne m ρ c main_arg7 (by decide)

/-! ## Across the first aggregation's host operations -/

theorem h1_v1 (c : Dev nD) : Same (W4 m ρ) (W2 m ρ) c main_v1 := by
  show StableHlo.after hostOps1_1 (StableHlo.after hostOps1 (W2 m ρ c)) (Proc.devRef .tc main_v1) = _; after_results_simp
theorem h1_v3 (c : Dev nD) : Same (W4 m ρ) (W2 m ρ) c main_v3 := by
  show StableHlo.after hostOps1_1 (StableHlo.after hostOps1 (W2 m ρ c)) (Proc.devRef .tc main_v3) = _; after_results_simp
theorem h1_v13 (c : Dev nD) : Same (W4 m ρ) (W2 m ρ) c main_v13 := by
  show StableHlo.after hostOps1_1 (StableHlo.after hostOps1 (W2 m ρ c)) (Proc.devRef .tc main_v13) = _; after_results_simp
theorem h1_v29 (c : Dev nD) : Same (W4 m ρ) (W2 m ρ) c main_v29 := by
  show StableHlo.after hostOps1_1 (StableHlo.after hostOps1 (W2 m ρ c)) (Proc.devRef .tc main_v29) = _; after_results_simp
theorem h1_v30 (c : Dev nD) : Same (W4 m ρ) (W2 m ρ) c main_v30 := by
  show StableHlo.after hostOps1_1 (StableHlo.after hostOps1 (W2 m ρ c)) (Proc.devRef .tc main_v30) = _; after_results_simp
theorem h1_arg4 (c : Dev nD) : Same (W4 m ρ) (W2 m ρ) c main_arg4 := by
  show StableHlo.after hostOps1_1 (StableHlo.after hostOps1 (W2 m ρ c)) (Proc.devRef .tc main_arg4) = _; after_results_simp
theorem h1_arg5 (c : Dev nD) : Same (W4 m ρ) (W2 m ρ) c main_arg5 := by
  show StableHlo.after hostOps1_1 (StableHlo.after hostOps1 (W2 m ρ c)) (Proc.devRef .tc main_arg5) = _; after_results_simp
theorem h1_arg6 (c : Dev nD) : Same (W4 m ρ) (W2 m ρ) c main_arg6 := by
  show StableHlo.after hostOps1_1 (StableHlo.after hostOps1 (W2 m ρ c)) (Proc.devRef .tc main_arg6) = _; after_results_simp
theorem h1_arg7 (c : Dev nD) : Same (W4 m ρ) (W2 m ρ) c main_arg7 := by
  show StableHlo.after hostOps1_1 (StableHlo.after hostOps1 (W2 m ρ c)) (Proc.devRef .tc main_arg7) = _; after_results_simp

/-! ## Across the second region (layer 0 combined, times W1) -/

theorem r1_v1 (c : Dev nD) : Same (W5 m ρ) (W4 m ρ) c main_v1 := W5_of_ne m ρ c main_v1 (by decide)
theorem r1_v3 (c : Dev nD) : Same (W5 m ρ) (W4 m ρ) c main_v3 := W5_of_ne m ρ c main_v3 (by decide)
theorem r1_v29 (c : Dev nD) : Same (W5 m ρ) (W4 m ρ) c main_v29 := W5_of_ne m ρ c main_v29 (by decide)
/-- The degree column is an input window of this region: an input's array ends as it was entered. -/
theorem r1_v13 (c : Dev nD) : Same (W5 m ρ) (W4 m ρ) c main_v13 :=
  (W5_arr m ρ c 2).trans (((dat1 (V4 m ρ) c).arrAt_in 2 rfl _).trans (A_eq1 (V4 m ρ) c 2))
theorem r1_arg5 (c : Dev nD) : Same (W5 m ρ) (W4 m ρ) c main_arg5 := W5_of_ne m ρ c main_arg5 (by decide)
theorem r1_arg6 (c : Dev nD) : Same (W5 m ρ) (W4 m ρ) c main_arg6 := W5_of_ne m ρ c main_arg6 (by decide)
theorem r1_arg7 (c : Dev nD) : Same (W5 m ρ) (W4 m ρ) c main_arg7 := W5_of_ne m ρ c main_arg7 (by decide)

/-! ## Across the second aggregation's host operations -/

theorem h2_v1 (c : Dev nD) : Same (W7 m ρ) (W5 m ρ) c main_v1 := by
  show StableHlo.after hostOps2_1 (StableHlo.after hostOps2 (W5 m ρ c)) (Proc.devRef .tc main_v1) = _; after_results_simp
theorem h2_v3 (c : Dev nD) : Same (W7 m ρ) (W5 m ρ) c main_v3 := by
  show StableHlo.after hostOps2_1 (StableHlo.after hostOps2 (W5 m ρ c)) (Proc.devRef .tc main_v3) = _; after_results_simp
theorem h2_v13 (c : Dev nD) : Same (W7 m ρ) (W5 m ρ) c main_v13 := by
  show StableHlo.after hostOps2_1 (StableHlo.after hostOps2 (W5 m ρ c)) (Proc.devRef .tc main_v13) = _; after_results_simp
theorem h2_v29 (c : Dev nD) : Same (W7 m ρ) (W5 m ρ) c main_v29 := by
  show StableHlo.after hostOps2_1 (StableHlo.after hostOps2 (W5 m ρ c)) (Proc.devRef .tc main_v29) = _; after_results_simp
theorem h2_v38 (c : Dev nD) : Same (W7 m ρ) (W5 m ρ) c main_v38 := by
  show StableHlo.after hostOps2_1 (StableHlo.after hostOps2 (W5 m ρ c)) (Proc.devRef .tc main_v38) = _; after_results_simp
theorem h2_arg6 (c : Dev nD) : Same (W7 m ρ) (W5 m ρ) c main_arg6 := by
  show StableHlo.after hostOps2_1 (StableHlo.after hostOps2 (W5 m ρ c)) (Proc.devRef .tc main_arg6) = _; after_results_simp
theorem h2_arg7 (c : Dev nD) : Same (W7 m ρ) (W5 m ρ) c main_arg7 := by
  show StableHlo.after hostOps2_1 (StableHlo.after hostOps2 (W5 m ρ c)) (Proc.devRef .tc main_arg7) = _; after_results_simp

/-! ## Across the third region (layer 1 combined, times W2) -/

theorem r2_v1 (c : Dev nD) : Same (W8 m ρ) (W7 m ρ) c main_v1 := W8_of_ne m ρ c main_v1 (by decide)
theorem r2_v3 (c : Dev nD) : Same (W8 m ρ) (W7 m ρ) c main_v3 := W8_of_ne m ρ c main_v3 (by decide)
theorem r2_v29 (c : Dev nD) : Same (W8 m ρ) (W7 m ρ) c main_v29 := W8_of_ne m ρ c main_v29 (by decide)
/-- The degree column is an input window of this region too. -/
theorem r2_v13 (c : Dev nD) : Same (W8 m ρ) (W7 m ρ) c main_v13 :=
  (W8_arr m ρ c 2).trans (((dat2 (V7 m ρ) c).arrAt_in 2 rfl _).trans (A_eq2 (V7 m ρ) c 2))
theorem r2_arg7 (c : Dev nD) : Same (W8 m ρ) (W7 m ρ) c main_arg7 := W8_of_ne m ρ c main_arg7 (by decide)

/-! ## Across the third aggregation's host operations -/

theorem h3_v13 (c : Dev nD) : Same (W10 m ρ) (W8 m ρ) c main_v13 := by
  show StableHlo.after hostOps3_1 (StableHlo.after hostOps3 (W8 m ρ c)) (Proc.devRef .tc main_v13) = _; after_results_simp
theorem h3_v46 (c : Dev nD) : Same (W10 m ρ) (W8 m ρ) c main_v46 := by
  show StableHlo.after hostOps3_1 (StableHlo.after hostOps3 (W8 m ρ c)) (Proc.devRef .tc main_v46) = _; after_results_simp

end Cert.KernelIdeal.Carry

end
-- ==== Proof.KStagesHost.lean ====
/-
  The host operations of the kernel's program, read as the reference's stages.

  Both programs compute the degrees, their inverse square roots, the edge coefficients and the three aggregations with the
  same host operations; they differ in one place only: the kernel gathers the rows of a layer's features with a fill for
  out-of-range source ids (a mask "0 ≤ id ≤ 49999" and a select between the gathered rows and the fill), where the reference
  gathers them plainly.  Where every source id is in [0, 50000) the mask is all ones and the select is the gather, so each
  aggregation of the kernel is the reference's aggregation of the same features.  A bias enters a tiled stage as a 1 × K row
  made by a reshape, where the reference makes the same row by a broadcast.

  Each statement takes the contents of a boundary of the kernel's run at one buffer and gives the reference's stage of the
  same arguments.  The aggregations take as a hypothesis that the layer they aggregate is already the reference's.
-/
import proofs.«405272_j62852551410248_3_alg».proof.Proof.Gen.KernelIdeal.Frame
import proofs.«405272_j62852551410248_3_alg».proof.Proof.Gen.ReferenceIdeal.Read
import proofs.«405272_j62852551410248_3_alg».proof.Proof.LibTakeFill
import proofs.«405272_j62852551410248_3_alg».proof.Proof.KCarry
import Idealize.ShloMosaic.Lib.StableHlo.Run

noncomputable section

namespace Cert.KernelIdeal.HostStages

open Cert.KernelIdeal Cert.KernelIdeal.Gen Cert.KernelIdeal.Carry Idealize.ShloMosaic Idealize.ShloMosaic.TcCoe Idealize.SL.Sem Idealize.ShloMosaic.StableHlo
open Cert.ReferenceIdeal.Read

variable {F : FTy → Type} [FloatOps F]
variable (m : (ℓ : Loc nD τ sig) → Buf (Elt F) ℓ) (ρ : Dev nD → PrngReg)

/-! ## Typed references

The operations of a function the program calls name their buffers by typed references and move contents to the buffer's
own type and back along the equation between the two types. -/

/-- Contents moved to a typed reference's buffer type and back are the contents. -/
theorem ofBuf_toBuf {T : BufTy} (x : TRef sig T) (v : T.Contents (Elt F)) : x.ofBuf (x.toBuf v) = v := by
  obtain ⟨r, h, h2, h3⟩ := x
  subst h
  rfl
/-- … and the other way round. -/
theorem toBuf_ofBuf {T : BufTy} (x : TRef sig T) (v : x.ref.ty.Contents (Elt F)) : x.toBuf (x.ofBuf v) = v := by
  obtain ⟨r, h, h2, h3⟩ := x
  subst h
  rfl

/-! At a literal reference whose buffer type is the value's type, the transport is the identity. -/
theorem toBuf_v31 (h1 h2 h3) (X : (⟨S800000x96, .f32⟩ : BufTy).Contents (Elt F)) :
    (TRef.of (sig := sig) (T := ⟨S800000x96, .f32⟩) main_v31 h1 h2 h3).toBuf X = X := cast_eq _ _
theorem toBuf_v39 (h1 h2 h3) (X : (⟨S800000x96, .f32⟩ : BufTy).Contents (Elt F)) :
    (TRef.of (sig := sig) (T := ⟨S800000x96, .f32⟩) main_v39 h1 h2 h3).toBuf X = X := cast_eq _ _
theorem toBuf_v47 (h1 h2 h3) (X : (⟨S800000x64, .f32⟩ : BufTy).Contents (Elt F)) :
    (TRef.of (sig := sig) (T := ⟨S800000x64, .f32⟩) main_v47 h1 h2 h3).toBuf X = X := cast_eq _ _
theorem ofBuf_v1 (h1 h2 h3) (X : (⟨S800000, .i32⟩ : BufTy).Contents (Elt F)) :
    (TRef.of (sig := sig) (T := ⟨S800000, .i32⟩) main_v1 h1 h2 h3).ofBuf X = X := cast_eq _ _
theorem ofBuf_v30 (h1 h2 h3) (X : (⟨S50000x96, .f32⟩ : BufTy).Contents (Elt F)) :
    (TRef.of (sig := sig) (T := ⟨S50000x96, .f32⟩) main_v30 h1 h2 h3).ofBuf X = X := cast_eq _ _
theorem ofBuf_v38 (h1 h2 h3) (X : (⟨S50000x96, .f32⟩ : BufTy).Contents (Elt F)) :
    (TRef.of (sig := sig) (T := ⟨S50000x96, .f32⟩) main_v38 h1 h2 h3).ofBuf X = X := cast_eq _ _
theorem ofBuf_v46 (h1 h2 h3) (X : (⟨S50000x64, .f32⟩ : BufTy).Contents (Elt F)) :
    (TRef.of (sig := sig) (T := ⟨S50000x64, .f32⟩) main_v46 h1 h2 h3).ofBuf X = X := cast_eq _ _

/-! ## The first stretch: ids, degree column, edge coefficients -/

/-- The source ids. -/
theorem first_src (c : Dev nD) : W1 m ρ c (Proc.devRef .tc main_v1) = val_main_v1 (F := F) (m ((c : Thread nD τ).loc main_arg1)) := by
  show StableHlo.after hostOps0 (W0 m ρ c) (Proc.devRef .tc main_v1) = _
  after_results_simp <;> rfl
/-- The destination ids. -/
theorem first_dst (c : Dev nD) : W1 m ρ c (Proc.devRef .tc main_v3) = val_main_v3 (F := F) (m ((c : Thread nD τ).loc main_arg1)) := by
  show StableHlo.after hostOps0 (W0 m ρ c) (Proc.devRef .tc main_v3) = _
  after_results_simp <;> rfl
/-- The squared inverse-square-root degrees, as a column. -/
theorem first_col (c : Dev nD) : W1 m ρ c (Proc.devRef .tc main_v13) = val_main_v42 (F := F) (m ((c : Thread nD τ).loc main_arg1)) := by
  show StableHlo.after hostOps0 (W0 m ρ c) (Proc.devRef .tc main_v13) = _
  after_results_simp <;> rfl
/-- The edge coefficients, as a column. -/
theorem first_coef (c : Dev nD) : W1 m ρ c (Proc.devRef .tc main_v29) = val_main_v35 (F := F) (m ((c : Thread nD τ).loc main_arg1)) := by
  show StableHlo.after hostOps0 (W0 m ρ c) (Proc.devRef .tc main_v29) = _
  after_results_simp <;> rfl

/-- The reference recomputes the degree column for each layer: the three are one term. -/
theorem col1_eq (x1 : (⟨Cert.ReferenceIdeal.S2x800000, .i32⟩ : BufTy).Contents (Elt F)) : val_main_v80 (F := F) x1 = val_main_v42 (F := F) x1 := rfl
theorem col2_eq (x1 : (⟨Cert.ReferenceIdeal.S2x800000, .i32⟩ : BufTy).Contents (Elt F)) : val_main_v118 (F := F) x1 = val_main_v42 (F := F) x1 := rfl

/-! ## Layer 0: the aggregation of x·W0 and the bias row -/

theorem agg0 (c : Dev nD)
    (hs : ∀ e, IntOp.cmpi .sge (val_main_v1 (F := F) (m ((c : Thread nD τ).loc main_arg1)) e) 0#32 = 1#1
             ∧ IntOp.cmpi .slt (val_main_v1 (F := F) (m ((c : Thread nD τ).loc main_arg1)) e) 50000#32 = 1#1)
    (hfeat : W2 m ρ c (Proc.devRef .tc main_v30) = val_main_v12 (F := F) (m ((c : Thread nD τ).loc main_arg0)) (m ((c : Thread nD τ).loc main_arg2))) :
    W4 m ρ c (Proc.devRef .tc main_v36) = val_main_v40 (F := F) (m ((c : Thread nD τ).loc main_arg0)) (m ((c : Thread nD τ).loc main_arg1)) (m ((c : Thread nD τ).loc main_arg2)) := by
  show StableHlo.after hostOps1_1 (StableHlo.after hostOps1 (W2 m ρ c)) (Proc.devRef .tc main_v36) = _
  after_results_simp
  simp only [ofBuf_toBuf, toBuf_ofBuf, toBuf_v31, ofBuf_v1, ofBuf_v30]
  rw [hfeat, Eq.trans (r0_v1 m ρ c) (first_src m ρ c), Eq.trans (r0_v3 m ρ c) (first_dst m ρ c),
    Eq.trans (r0_v29 m ρ c) (first_coef m ρ c)]
  -- every source id is in range: the select under the row mask is the gather
  refine (congrArg (fun t => Host.scatterAdd _ _ _ (mulf t _))
    (Cert.LibTakeFill.select_mask_eq (E := 800000) (C := 96) 50000#32 49999#32 (by decide) _ hs _ _ _ _ _ _ _ _ _ _)).trans ?_
  rfl

theorem bias0 (c : Dev nD) : W4 m ρ c (Proc.devRef .tc main_v37) = val_main_v46 (F := F) (m ((c : Thread nD τ).loc main_arg3)) := by
  show StableHlo.after hostOps1_1 (StableHlo.after hostOps1 (W2 m ρ c)) (Proc.devRef .tc main_v37) = _
  after_results_simp
  rw [Eq.trans (r0_arg3 m ρ c) (first_arg3 m ρ c)]
  exact Cert.LibTakeFill.shapeCast_row_eq_bcast _ _ _

/-! ## Layer 1 -/

theorem agg1 (c : Dev nD)
    (hs : ∀ e, IntOp.cmpi .sge (val_main_v1 (F := F) (m ((c : Thread nD τ).loc main_arg1)) e) 0#32 = 1#1
             ∧ IntOp.cmpi .slt (val_main_v1 (F := F) (m ((c : Thread nD τ).loc main_arg1)) e) 50000#32 = 1#1)
    (hfeat : W5 m ρ c (Proc.devRef .tc main_v38) = val_main_v50 (F := F) (m ((c : Thread nD τ).loc main_arg0)) (m ((c : Thread nD τ).loc main_arg1)) (m ((c : Thread nD τ).loc main_arg2)) (m ((c : Thread nD τ).loc main_arg3)) (m ((c : Thread nD τ).loc main_arg4))) :
    W7 m ρ c (Proc.devRef .tc main_v44) = val_main_v78 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2_1 (StableHlo.after hostOps2 (W5 m ρ c)) (Proc.devRef .tc main_v44) = _
  after_results_simp
  simp only [ofBuf_toBuf, toBuf_ofBuf, toBuf_v39, ofBuf_v1, ofBuf_v38]
  rw [hfeat,
    Eq.trans (r1_v1 m ρ c) (Eq.trans (h1_v1 m ρ c) (Eq.trans (r0_v1 m ρ c) (first_src m ρ c))),
    Eq.trans (r1_v3 m ρ c) (Eq.trans (h1_v3 m ρ c) (Eq.trans (r0_v3 m ρ c) (first_dst m ρ c))),
    Eq.trans (r1_v29 m ρ c) (Eq.trans (h1_v29 m ρ c) (Eq.trans (r0_v29 m ρ c) (first_coef m ρ c)))]
  refine (congrArg (fun t => Host.scatterAdd _ _ _ (mulf t _))
    (Cert.LibTakeFill.select_mask_eq (E := 800000) (C := 96) 50000#32 49999#32 (by decide) _ hs _ _ _ _ _ _ _ _ _ _)).trans ?_
  rfl

theorem bias1 (c : Dev nD) : W7 m ρ c (Proc.devRef .tc main_v45) = val_main_v84 (F := F) (m ((c : Thread nD τ).loc main_arg5)) := by
  show StableHlo.after hostOps2_1 (StableHlo.after hostOps2 (W5 m ρ c)) (Proc.devRef .tc main_v45) = _
  after_results_simp
  rw [Eq.trans (r1_arg5 m ρ c) (Eq.trans (h1_arg5 m ρ c) (Eq.trans (r0_arg5 m ρ c) (first_arg5 m ρ c)))]
  exact Cert.LibTakeFill.shapeCast_row_eq_bcast _ _ _

/-! ## Layer 2 -/

theorem agg2 (c : Dev nD)
    (hs : ∀ e, IntOp.cmpi .sge (val_main_v1 (F := F) (m ((c : Thread nD τ).loc main_arg1)) e) 0#32 = 1#1
             ∧ IntOp.cmpi .slt (val_main_v1 (F := F) (m ((c : Thread nD τ).loc main_arg1)) e) 50000#32 = 1#1)
    (hfeat : W8 m ρ c (Proc.devRef .tc main_v46) = val_main_v88 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W10 m ρ c (Proc.devRef .tc main_v52) = val_main_v116 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3_1 (StableHlo.after hostOps3 (W8 m ρ c)) (Proc.devRef .tc main_v52) = _
  after_results_simp
  simp only [ofBuf_toBuf, toBuf_ofBuf, toBuf_v47, ofBuf_v1, ofBuf_v46]
  rw [hfeat,
    Eq.trans (r2_v1 m ρ c) (Eq.trans (h2_v1 m ρ c) (Eq.trans (r1_v1 m ρ c) (Eq.trans (h1_v1 m ρ c) (Eq.trans (r0_v1 m ρ c) (first_src m ρ c))))),
    Eq.trans (r2_v3 m ρ c) (Eq.trans (h2_v3 m ρ c) (Eq.trans (r1_v3 m ρ c) (Eq.trans (h1_v3 m ρ c) (Eq.trans (r0_v3 m ρ c) (first_dst m ρ c))))),
    Eq.trans (r2_v29 m ρ c) (Eq.trans (h2_v29 m ρ c) (Eq.trans (r1_v29 m ρ c) (Eq.trans (h1_v29 m ρ c) (Eq.trans (r0_v29 m ρ c) (first_coef m ρ c)))))]
  refine (congrArg (fun t => Host.scatterAdd _ _ _ (mulf t _))
    (Cert.LibTakeFill.select_mask_eq (E := 800000) (C := 64) 50000#32 49999#32 (by decide) _ hs _ _ _ _ _ _ _ _ _ _)).trans ?_
  rfl

theorem bias2 (c : Dev nD) : W10 m ρ c (Proc.devRef .tc main_v53) = val_main_v122 (F := F) (m ((c : Thread nD τ).loc main_arg7)) := by
  show StableHlo.after hostOps3_1 (StableHlo.after hostOps3 (W8 m ρ c)) (Proc.devRef .tc main_v53) = _
  after_results_simp
  rw [Eq.trans (r2_arg7 m ρ c) (Eq.trans (h2_arg7 m ρ c) (Eq.trans (r1_arg7 m ρ c) (Eq.trans (h1_arg7 m ρ c) (Eq.trans (r0_arg7 m ρ c) (first_arg7 m ρ c)))))]
  exact Cert.LibTakeFill.shapeCast_row_eq_bcast _ _ _

end Cert.KernelIdeal.HostStages

end
-- ==== Proof.Spec.lean ====
/-
  What the four tiled stages of the graph-convolution encoder compute, index by index, over the extended reals.

  Each stage reads whole arrays: an aggregate `agg` and a feature matrix `h` (both N × K), the squared inverse-square-root
  degrees as a column `dcol` (N × 1), a bias as a row `brow` (1 × K), and a weight matrix `W` (K × C).
  * `mm x W` is the plain product: entry (r, j) is the sum over k of x(r, k) · W(k, j).
  * `pre agg h dcol brow r k` is the layer's pre-activation agg(r, k) + dcol(r, 0) · h(r, k) + brow(0, k), in that order of
    additions, and `act` is its positive part.
  * `combMM` is the product of the activated layer with the next weight matrix; `comb` is the last layer, which is not
    activated and not multiplied.
-/
import Idealize.ShloMosaic.PureOps.Ideal
import Idealize.ShloMosaic.Lib.ValueIdx

noncomputable section

namespace Cert.Spec

open Idealize.ShloMosaic Idealize.ShloMosaic.ValueIdx

variable {N K C : Nat}

/-- The product of an N × K matrix with a K × C matrix: entry (r, j) is the sum over k of x(r, k) · W(k, j). -/
def mm (x : (⟨2, ![N, K]⟩ : Shape).Idx → EReal) (W : (⟨2, ![K, C]⟩ : Shape).Idx → EReal) :
    (⟨2, ![N, C]⟩ : Shape).Idx → EReal :=
  fun i => ∑ k : Fin K, x (ix2 (i 0) k) * W (ix2 k (i 1))

/-- A layer's pre-activation at row r, column k: the aggregate, plus the self-loop term, plus the bias. -/
def pre (agg h : (⟨2, ![N, K]⟩ : Shape).Idx → EReal) (dcol : (⟨2, ![N, 1]⟩ : Shape).Idx → EReal)
    (brow : (⟨2, ![1, K]⟩ : Shape).Idx → EReal) (r : Fin N) (k : Fin K) : EReal :=
  agg (ix2 r k) + dcol (ix2 r 0) * h (ix2 r k) + brow (ix2 0 k)

/-- Its positive part. -/
def act (agg h : (⟨2, ![N, K]⟩ : Shape).Idx → EReal) (dcol : (⟨2, ![N, 1]⟩ : Shape).Idx → EReal)
    (brow : (⟨2, ![1, K]⟩ : Shape).Idx → EReal) (r : Fin N) (k : Fin K) : EReal :=
  max (pre agg h dcol brow r k) 0

/-- An activated layer times the next weight matrix. -/
def combMM (agg h : (⟨2, ![N, K]⟩ : Shape).Idx → EReal) (dcol : (⟨2, ![N, 1]⟩ : Shape).Idx → EReal)
    (brow : (⟨2, ![1, K]⟩ : Shape).Idx → EReal) (W : (⟨2, ![K, C]⟩ : Shape).Idx → EReal) :
    (⟨2, ![N, C]⟩ : Shape).Idx → EReal :=
  fun i => ∑ k : Fin K, act agg h dcol brow (i 0) k * W (ix2 k (i 1))

/-- The last layer: the pre-activation itself. -/
def comb (agg h : (⟨2, ![N, K]⟩ : Shape).Idx → EReal) (dcol : (⟨2, ![N, 1]⟩ : Shape).Idx → EReal)
    (brow : (⟨2, ![1, K]⟩ : Shape).Idx → EReal) : (⟨2, ![N, K]⟩ : Shape).Idx → EReal :=
  fun i => pre agg h dcol brow (i 0) (i 1)

end Cert.Spec

end
-- ==== Proof.KReg0.lean ====
/-
  The first tiled stage: the plain product x · W, one block of 5000 rows per grid point.

  At grid point t the stage reads rows 5000 t … 5000 t + 4999 of x and the whole weight W, and writes the same rows of
  the product. Entry (r, j) of a block's product is the sum over k of the block's x(r, k) times W(k, j); a block's row r
  is row 5000 t + r of the array, so the block written at point t is block t of the whole product `Spec.mm x W`. The
  ten blocks tile the 50000 rows (row r lies in the block of point r / 5000), so the array ends holding the product.
-/
import proofs.«405272_j62852551410248_3_alg».proof.Proof.Gen.KernelIdeal.Frame
import proofs.«405272_j62852551410248_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace R0

theorem hz : (![0, 0] : Fin 2 → Nat) = fun _ => 0 := funext fun a => by fin_cases a <;> rfl

theorem lhs_0 (i : S5000x96.Idx) (q : dot_S5000x96_S96x96_S5000x96_1_0_0_1_n_n.contr.Idx) :
    (dot_S5000x96_S96x96_S5000x96_1_0_0_1_n_n.lhsIdx i q 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
theorem lhs_1 (i : S5000x96.Idx) (q : dot_S5000x96_S96x96_S5000x96_1_0_0_1_n_n.contr.Idx) :
    (dot_S5000x96_S96x96_S5000x96_1_0_0_1_n_n.lhsIdx i q 1).val = (q ⟨0, by decide⟩).val :=
  dot_S5000x96_S96x96_S5000x96_1_0_0_1_n_n.lhsIdx_val_of_single rfl i q
theorem rhs_0 (i : S5000x96.Idx) (q : dot_S5000x96_S96x96_S5000x96_1_0_0_1_n_n.contr.Idx) :
    (dot_S5000x96_S96x96_S5000x96_1_0_0_1_n_n.rhsIdx i q 0).val = (q ⟨0, by decide⟩).val :=
  dot_S5000x96_S96x96_S5000x96_1_0_0_1_n_n.rhsIdx_val_of_single rfl i q
theorem rhs_1 (i : S5000x96.Idx) (q : dot_S5000x96_S96x96_S5000x96_1_0_0_1_n_n.contr.Idx) :
    (dot_S5000x96_S96x96_S5000x96_1_0_0_1_n_n.rhsIdx i q 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- The block product at an index: row r of the left block against column j of the weight. -/
theorem pay_apply (x0 : Vec Ideal S5000x96 .f32) (x1 : Vec Ideal S96x96 .f32) (r : Fin 5000) (j : Fin 96) :
    k0_pay1 x0 x1 (ix2 r j) = ∑ k : Fin 96, x0 (ix2 r k) * x1 (ix2 k j) := by
  unfold k0_pay1
  refine (Ideal.matmul_constant_zero_apply dot_S5000x96_S96x96_S5000x96_1_0_0_1_n_n none _ _ (ix2 r j)).trans ?_
  rw [← Equiv.sum_comp (ValueIdx.contrEquiv1 dot_S5000x96_S96x96_S5000x96_1_0_0_1_n_n 96 rfl rfl).symm]
  refine Finset.sum_congr rfl fun k _ => ?_
  have hk := ValueIdx.contrEquiv1_symm_val dot_S5000x96_S96x96_S5000x96_1_0_0_1_n_n 96 rfl rfl k
  have el : dot_S5000x96_S96x96_S5000x96_1_0_0_1_n_n.lhsIdx (ix2 r j) ((ValueIdx.contrEquiv1 dot_S5000x96_S96x96_S5000x96_1_0_0_1_n_n 96 rfl rfl).symm k) = ix2 r k := funext fun a => Fin.ext (by
    match a with
    | ⟨0, _⟩ => exact lhs_0 _ _
    | ⟨1, _⟩ => exact (lhs_1 _ _).trans hk)
  have er : dot_S5000x96_S96x96_S5000x96_1_0_0_1_n_n.rhsIdx (ix2 r j) ((ValueIdx.contrEquiv1 dot_S5000x96_S96x96_S5000x96_1_0_0_1_n_n 96 rfl rfl).symm k) = ix2 k j := funext fun a => Fin.ext (by
    match a with
    | ⟨0, _⟩ => exact (rhs_0 _ _).trans hk
    | ⟨1, _⟩ => exact rhs_1 _ _)
  rw [truncf_apply, truncf_apply, el, er]

/-- The index maps, decided once over the ten grid points: the row blocks of the left factor and of the product move
    together along axis 0 at block index t, the weight's block stays at (0, 0). -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

theorem flushed_eq (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero hz]
  simp only [View.ld_unit_zero (S := S5000x96) hz, View.ld_unit_zero (S := S96x96) hz]
  obtain ⟨e0, e1, e2, e3, e4, e5⟩ := idx_facts t
  funext y
  obtain ⟨r, j, rfl⟩ : ∃ (r : Fin 5000) (j : Fin 96), y = ix2 r j := ⟨y 0, y 1, eq_ix2 y⟩
  show k0_pay1 (iblk0 V c 0 t) (iblk0 V c 1 t) (ix2 r j)
    = Cert.Spec.mm (V c main_arg0) (V c main_arg2) (((cfg0.win 2).blk t).view.emb (ix2 r j))
  refine (pay_apply _ _ r j).trans ?_
  unfold Cert.Spec.mm
  refine Finset.sum_congr rfl fun k _ => ?_
  have h0 : iblk0 V c 0 t (ix2 r k) = V c main_arg0 (ix2 (((cfg0.win 2).blk t).view.emb (ix2 r j) 0) k) := by
    show V c main_arg0 (((cfg0.win 0).blk t).view.emb (ix2 r k)) = V c main_arg0 (ix2 (((cfg0.win 2).blk t).view.emb (ix2 r j) 0) k)
    refine congrArg (V c main_arg0) (funext fun a => Fin.ext ?_)
    match a with
    | ⟨0, _⟩ =>
      show win0_0.index t (0 : Fin 2) * 5000 + 1 * r.val = win0_2.index t (0 : Fin 2) * 5000 + 1 * r.val
      rw [e0]
    | ⟨1, _⟩ =>
      show win0_0.index t (1 : Fin 2) * 96 + 1 * k.val = k.val
      rw [e1]; omega
  have h1 : iblk0 V c 1 t (ix2 k j) = V c main_arg2 (ix2 k (((cfg0.win 2).blk t).view.emb (ix2 r j) 1)) := by
    show V c main_arg2 (((cfg0.win 1).blk t).view.emb (ix2 k j)) = V c main_arg2 (ix2 k (((cfg0.win 2).blk t).view.emb (ix2 r j) 1))
    refine congrArg (V c main_arg2) (funext fun a => Fin.ext ?_)
    match a with
    | ⟨0, _⟩ =>
      show win0_1.index t (0 : Fin 2) * 96 + 1 * k.val = k.val
      rw [e2]; omega
    | ⟨1, _⟩ =>
      show win0_1.index t (1 : Fin 2) * 96 + 1 * j.val = win0_2.index t (1 : Fin 2) * 96 + 1 * j.val
      rw [e3, e5]
  rw [h0, h1]

/-- An index of the product array is in point t's block iff each coordinate is in the block's range on its axis. -/
theorem mem_blk (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v30).slice (win0_2.rect t)).set ↔ _
  rw [View.set_slice_whole, Rect.mem_set_unit]
  exact Iff.rfl

/-- Row r of the product array lies in the block of grid point r / 5000. -/
theorem cover (i : S50000x96.Idx) :
    ∃ t : Fin cfg0.N, (cfg0.win 2).flush t = true ∧ i ∈ ((cfg0.win 2).blk t).view.set := by
  have hi0 : (i 0).val < 50000 := (i 0).isLt
  have hi1 : (i 1).val < 96 := (i 1).isLt
  have hN : cfg0.N = 10 := N_0
  have ht : (i 0).val / 5000 < cfg0.N := by rw [hN]; omega
  refine ⟨⟨(i 0).val / 5000, ht⟩, flush0_2 _, ?_⟩
  rw [mem_blk]
  obtain ⟨e0, e1, e2, e3, e4, e5⟩ := idx_facts ⟨(i 0).val / 5000, ht⟩
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 96 ≤ (i 1).val
      ∧ (i 1).val < win0_2.index ⟨(i 0).val / 5000, ht⟩ (1 : Fin 2) * 96 + 96
    rw [e5]
    omega

end R0

/-- The product array after the ten grid points: every row block written once, each holding its rows of x · W. -/
theorem region0_value (c : Dev nD) :
    (dat0 (F := Ideal) V c).arrAt 2 cfg0.N = Cert.Spec.mm (V c main_arg0) (V c main_arg2) :=
  (dat0 (F := Ideal) V c).arrAt_eq_of_cover 2 (Cert.Spec.mm (V c main_arg0) (V c main_arg2))
    (fun t _ => R0.flushed_eq V c t) R0.cover

end Cert.KernelIdeal.RegionValue

end
-- ==== Proof.KReg1.lean ====
/-
  A fused tiled stage: a layer's positive part times the next weight matrix, one block of 5000 rows per grid point.

  At grid point t the stage reads rows 5000 t … 5000 t + 4999 of the aggregate, of the features and of the degree column, the
  one bias row and the whole weight W (96 × 96), and writes the same rows of the output (5000 × 96 per block).  Entry (r, j) of a
  block's result is the sum over k of max(agg(r, k) + dcol(r, 0) · h(r, k) + brow(0, k), 0) · W(k, j) over the block's rows; a
  block's row r is row 5000 t + r of each array, and the bias row and the weight are the same at every point, so the block
  written at point t is block t of `Spec.combMM agg h dcol brow W`.  The ten blocks tile the 50000 rows (row r lies in the
  block of point r / 5000), so the array ends holding that function.
-/
import proofs.«405272_j62852551410248_3_alg».proof.Proof.Gen.KernelIdeal.Frame
import proofs.«405272_j62852551410248_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

namespace R1

open Idealize.ShloMosaic.ValueIdx
open scoped BigOperators

/-- The zero offsets of a whole-block rectangle. -/
theorem hz : (![0, 0] : Fin 2 → Nat) = fun _ => 0 := funext fun a => by fin_cases a <;> rfl

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The product's operand indices: at output index `i` and contraction index `q` the left operand is read at
    `(i 0, q)` and the right at `(q, i 1)`. -/

theorem lhs_0 (i : S5000x96.Idx) (q : dot_S5000x96_S96x96_S5000x96_1_0_0_1_n_n.contr.Idx) :
    (dot_S5000x96_S96x96_S5000x96_1_0_0_1_n_n.lhsIdx i q 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
theorem lhs_1 (i : S5000x96.Idx) (q : dot_S5000x96_S96x96_S5000x96_1_0_0_1_n_n.contr.Idx) :
    (dot_S5000x96_S96x96_S5000x96_1_0_0_1_n_n.lhsIdx i q 1).val = (q ⟨0, by decide⟩).val :=
  dot_S5000x96_S96x96_S5000x96_1_0_0_1_n_n.lhsIdx_val_of_single rfl i q
theorem rhs_0 (i : S5000x96.Idx) (q : dot_S5000x96_S96x96_S5000x96_1_0_0_1_n_n.contr.Idx) :
    (dot_S5000x96_S96x96_S5000x96_1_0_0_1_n_n.rhsIdx i q 0).val = (q ⟨0, by decide⟩).val :=
  dot_S5000x96_S96x96_S5000x96_1_0_0_1_n_n.rhsIdx_val_of_single rfl i q
theorem rhs_1 (i : S5000x96.Idx) (q : dot_S5000x96_S96x96_S5000x96_1_0_0_1_n_n.contr.Idx) :
    (dot_S5000x96_S96x96_S5000x96_1_0_0_1_n_n.rhsIdx i q 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- The product into the zero block, at `(r, j)`: the sum over `k` of the left block at `(r, k)` times the right at `(k, j)`. -/
theorem matmul_apply (a : FVec Ideal S5000x96 .bf16) (b : FVec Ideal S96x96 .bf16) (r : Fin 5000) (j : Fin 96) :
    matmul dot_S5000x96_S96x96_S5000x96_1_0_0_1_n_n none a b (constant S5000x96 .f32 0x00000000#32) (ix2 r j)
      = ∑ k : Fin 96, a (ix2 r k) * b (ix2 k j) := by
  simp only [matmul]
  rw [Ideal.matmul_constant_zero_apply, ← Equiv.sum_comp (ValueIdx.contrEquiv1 dot_S5000x96_S96x96_S5000x96_1_0_0_1_n_n 96 rfl rfl).symm]
  refine Finset.sum_congr rfl fun k _ => ?_
  have hk := ValueIdx.contrEquiv1_symm_val dot_S5000x96_S96x96_S5000x96_1_0_0_1_n_n 96 rfl rfl k
  have el : dot_S5000x96_S96x96_S5000x96_1_0_0_1_n_n.lhsIdx (ix2 r j) ((ValueIdx.contrEquiv1 dot_S5000x96_S96x96_S5000x96_1_0_0_1_n_n 96 rfl rfl).symm k) = ix2 r k := funext fun a => Fin.ext (by
    match a with
    | ⟨0, _⟩ => exact lhs_0 _ _
    | ⟨1, _⟩ => exact (lhs_1 _ _).trans hk)
  have er : dot_S5000x96_S96x96_S5000x96_1_0_0_1_n_n.rhsIdx (ix2 r j) ((ValueIdx.contrEquiv1 dot_S5000x96_S96x96_S5000x96_1_0_0_1_n_n 96 rfl rfl).symm k) = ix2 k j := funext fun a => Fin.ext (by
    match a with
    | ⟨0, _⟩ => exact (rhs_0 _ _).trans hk
    | ⟨1, _⟩ => exact rhs_1 _ _)
  rw [el, er]

/-- The body's arithmetic at `(r, j)`: the activated combination of the row's blocks, times the weight's column. -/
theorem pay_apply (v0 : Vec Ideal S5000x96 .f32) (v2 : Vec Ideal S5000x1 .f32) (v4 : Vec Ideal S5000x96 .f32)
    (v9 : Vec Ideal S1x96 .f32) (v16 : Vec Ideal S96x96 .f32) (r : Fin 5000) (j : Fin 96) :
    k1_pay1 v0 v2 v4 v9 v16 (ix2 r j)
      = ∑ k : Fin 96, max (v0 (ix2 r k) + v2 (ix2 r (0 : Fin 1)) * v4 (ix2 r k) + v9 (ix2 (0 : Fin 1) k)) 0 * v16 (ix2 k j) := by
  unfold k1_pay1
  refine (matmul_apply _ _ r j).trans ?_
  refine Finset.sum_congr rfl fun k _ => ?_
  rw [truncf_apply, truncf_apply, maximumf_apply, addf_apply, addf_apply, mulf_apply, broadcast_apply,
    shapeCast_self, shapeCast_self, shapeCast_self, shapeCast_self,
    broadcastTo_a1_ab_apply, broadcastTo_1b_ab_apply]
  show max _ (Ideal.ofBits .f32 0x00000000#32) * _ = _
  rw [Ideal.ofBits_zero_f32]

/-- The index maps over the grid: a row window's block at point `t` is block `(t, 0)` of its array; the bias row's and the
    weight's is block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One entry of the output block from the blocks of one point: if the row blocks are rows `R` of their arrays and the
    bias row's and the weight's blocks are those arrays, the body's value at `(r, j)` is the specification's at `(R, j)`. -/
theorem point (A H : S50000x96.Idx → EReal) (D : S50000x1.Idx → EReal) (B : S1x96.Idx → EReal) (W : S96x96.Idx → EReal)
    (x0 x1 : Vec Ideal S5000x96 .f32) (x2 : Vec Ideal S5000x1 .f32) (x3 : Vec Ideal S1x96 .f32) (x4 : Vec Ideal S96x96 .f32)
    (r : Fin 5000) (j : Fin 96) (R : Fin 50000)
    (h0 : ∀ k : Fin 96, x0 (ix2 r k) = A (ix2 R k))
    (h1 : ∀ k : Fin 96, x1 (ix2 r k) = H (ix2 R k))
    (h2 : x2 (ix2 r (0 : Fin 1)) = D (ix2 R (0 : Fin 1)))
    (h3 : ∀ k : Fin 96, x3 (ix2 (0 : Fin 1) k) = B (ix2 (0 : Fin 1) k))
    (h4 : ∀ k : Fin 96, x4 (ix2 k j) = W (ix2 k j)) :
    k1_pay1 x0 x2 x1 x3 x4 (ix2 r j) = Cert.Spec.combMM A H D B W (ix2 R j) := by
  rw [pay_apply]
  show _ = ∑ k : Fin 96, Cert.Spec.act A H D B R k * W (ix2 k j)
  refine Finset.sum_congr rfl fun k _ => ?_
  rw [h0, h1, h2, h3, h4]
  rfl

/-- What point `t` writes back is block `t` of the specification's array of the arrays the region finds. -/
theorem flushed_eq (c : Dev nD) (t : Fin cfg1.N) :
    (dat1 (F := Ideal) V c).flushed 5 t = ((cfg1.win 5).blk t).view.read (Elt Ideal)
      (Cert.Spec.combMM (V c main_v36) (V c main_v30) (V c main_v13) (V c main_v37) (V c main_arg4)) := by
  show (cfg1.win 5).cut (grid1.coords t) ((dat1 V c).after 5 t) = _
  rw [after1_5]
  unfold out1_5
  rw [View.canon_unit_zero hz]
  simp only [View.ld_unit_zero (S := S5000x96) hz, View.ld_unit_zero (S := S5000x1) hz, View.ld_unit_zero (S := S1x96) hz,
    View.ld_unit_zero (S := S96x96) hz]
  obtain ⟨e00, e01, e10, e11, e20, e21, e30, e31, e40, e41, e50, e51⟩ := idx_facts t
  have ht : t.val < 10 := Nat.lt_of_lt_of_eq t.isLt (show cfg1.N = 10 from N_1)
  funext y
  obtain ⟨r, j, rfl⟩ : ∃ (r : Fin 5000) (j : Fin 96), y = ix2 r j := ⟨y 0, y 1, eq_ix2 y⟩
  have hr : r.val < 5000 := r.isLt
  have hj : j.val < 96 := j.isLt
  have hemb : ((cfg1.win 5).blk t).view.emb (ix2 r j) = ix2 (⟨t.val * 5000 + r.val, by omega⟩ : Fin 50000) j := by
    funext a; apply Fin.ext
    match a with
    | ⟨0, _⟩ => show win1_5.index t (0 : Fin 2) * 5000 + 1 * r.val = t.val * 5000 + r.val; omega
    | ⟨1, _⟩ => show win1_5.index t (1 : Fin 2) * 96 + 1 * j.val = j.val; omega
  show k1_pay1 (iblk1 V c 0 t) (iblk1 V c 2 t) (iblk1 V c 1 t) (iblk1 V c 3 t) (iblk1 V c 4 t) (ix2 r j)
    = Cert.Spec.combMM (V c main_v36) (V c main_v30) (V c main_v13) (V c main_v37) (V c main_arg4) (((cfg1.win 5).blk t).view.emb (ix2 r j))
  rw [hemb]
  refine point _ _ _ _ _ _ _ _ _ _ r j _ (fun k => ?_) (fun k => ?_) ?_ (fun k => ?_) (fun k => ?_)
  · have hk : k.val < 96 := k.isLt
    show V c main_v36 (((cfg1.win 0).blk t).view.emb (ix2 r k)) = V c main_v36 _
    refine congrArg (V c main_v36) (funext fun a => Fin.ext ?_)
    match a with
    | ⟨0, _⟩ => show win1_0.index t (0 : Fin 2) * 5000 + 1 * r.val = t.val * 5000 + r.val; omega
    | ⟨1, _⟩ => show win1_0.index t (1 : Fin 2) * 96 + 1 * k.val = k.val; omega
  · have hk : k.val < 96 := k.isLt
    show V c main_v30 (((cfg1.win 1).blk t).view.emb (ix2 r k)) = V c main_v30 _
    refine congrArg (V c main_v30) (funext fun a => Fin.ext ?_)
    match a with
    | ⟨0, _⟩ => show win1_1.index t (0 : Fin 2) * 5000 + 1 * r.val = t.val * 5000 + r.val; omega
    | ⟨1, _⟩ => show win1_1.index t (1 : Fin 2) * 96 + 1 * k.val = k.val; omega
  · show V c main_v13 (((cfg1.win 2).blk t).view.emb (ix2 r (0 : Fin 1))) = V c main_v13 _
    refine congrArg (V c main_v13) (funext fun a => Fin.ext ?_)
    match a with
    | ⟨0, _⟩ => show win1_2.index t (0 : Fin 2) * 5000 + 1 * r.val = t.val * 5000 + r.val; omega
    | ⟨1, _⟩ => show win1_2.index t (1 : Fin 2) * 1 + 1 * 0 = 0; omega
  · have hk : k.val < 96 := k.isLt
    show V c main_v37 (((cfg1.win 3).blk t).view.emb (ix2 (0 : Fin 1) k)) = V c main_v37 _
    refine congrArg (V c main_v37) (funext fun a => Fin.ext ?_)
    match a with
    | ⟨0, _⟩ => show win1_3.index t (0 : Fin 2) * 1 + 1 * 0 = 0; omega
    | ⟨1, _⟩ => show win1_3.index t (1 : Fin 2) * 96 + 1 * k.val = k.val; omega
  · have hk : k.val < 96 := k.isLt
    show V c main_arg4 (((cfg1.win 4).blk t).view.emb (ix2 k j)) = V c main_arg4 _
    refine congrArg (V c main_arg4) (funext fun a => Fin.ext ?_)
    match a with
    | ⟨0, _⟩ => show win1_4.index t (0 : Fin 2) * 96 + 1 * k.val = k.val; omega
    | ⟨1, _⟩ => show win1_4.index t (1 : Fin 2) * 96 + 1 * j.val = j.val; omega

/-- An index of the output array is in point `t`'s block iff each coordinate is in the block's range on its axis. -/
theorem mem_blk (t : Fin cfg1.N) (i : S50000x96.Idx) :
    i ∈ ((cfg1.win 5).blk t).view.set ↔ ∀ a : Fin 2, win1_5.index t a * S5000x96.size a ≤ (i a).val ∧ (i a).val < win1_5.index t a * S5000x96.size a + S5000x96.size a := by
  show i ∈ ((View.whole main_v38).slice (win1_5.rect t)).set ↔ _
  rw [View.set_slice_whole, Rect.mem_set_unit]
  exact Iff.rfl

/-- Every index of the output array is in some point's block: row `r` is in the block of point `r / 5000`. -/
theorem cover (i : S50000x96.Idx) :
    ∃ t : Fin cfg1.N, (cfg1.win 5).flush t = true ∧ i ∈ ((cfg1.win 5).blk t).view.set := by
  have hi0 : (i 0).val < 50000 := (i 0).isLt
  have hi1 : (i 1).val < 96 := (i 1).isLt
  have hN : cfg1.N = 10 := N_1
  have hq : (i 0).val / 5000 < cfg1.N := by rw [hN]; omega
  refine ⟨⟨(i 0).val / 5000, hq⟩, flush1_5 _, ?_⟩
  rw [mem_blk]
  obtain ⟨-, -, -, -, -, -, -, -, -, -, e50, e51⟩ := idx_facts ⟨(i 0).val / 5000, hq⟩
  have e50' : win1_5.index ⟨(i 0).val / 5000, hq⟩ (0 : Fin 2) = (i 0).val / 5000 := e50
  intro a
  match a with
  | ⟨0, _⟩ =>
    show win1_5.index ⟨(i 0).val / 5000, hq⟩ (0 : Fin 2) * 5000 ≤ (i 0).val ∧ (i 0).val < win1_5.index ⟨(i 0).val / 5000, hq⟩ (0 : Fin 2) * 5000 + 5000
    omega
  | ⟨1, _⟩ =>
    show win1_5.index ⟨(i 0).val / 5000, hq⟩ (1 : Fin 2) * 96 ≤ (i 1).val ∧ (i 1).val < win1_5.index ⟨(i 0).val / 5000, hq⟩ (1 : Fin 2) * 96 + 96
    omega

end R1

/-- The second region's output array after the run: the activated layer times the weight, of the arrays the region finds. -/
theorem region1_value (c : Dev nD) :
    (dat1 (F := Ideal) V c).arrAt 5 cfg1.N
      = Cert.Spec.combMM (V c main_v36) (V c main_v30) (V c main_v13) (V c main_v37) (V c main_arg4) :=
  (dat1 (F := Ideal) V c).arrAt_eq_of_cover 5
    (Cert.Spec.combMM (V c main_v36) (V c main_v30) (V c main_v13) (V c main_v37) (V c main_arg4))
    (fun t _ => R1.flushed_eq V c t) R1.cover

end Cert.KernelIdeal.RegionValue

end
-- ==== Proof.KReg2.lean ====
/-
  A fused tiled stage: a layer's positive part times the next weight matrix, one block of 5000 rows per grid point.

  At grid point t the stage reads rows 5000 t … 5000 t + 4999 of the aggregate, of the features and of the degree column, the
  one bias row and the whole weight W (96 × 64), and writes the same rows of the output (5000 × 64 per block).  Entry (r, j) of a
  block's result is the sum over k of max(agg(r, k) + dcol(r, 0) · h(r, k) + brow(0, k), 0) · W(k, j) over the block's rows; a
  block's row r is row 5000 t + r of each array, and the bias row and the weight are the same at every point, so the block
  written at point t is block t of `Spec.combMM agg h dcol brow W`.  The ten blocks tile the 50000 rows (row r lies in the
  block of point r / 5000), so the array ends holding that function.
-/
import proofs.«405272_j62852551410248_3_alg».proof.Proof.Gen.KernelIdeal.Frame
import proofs.«405272_j62852551410248_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

namespace R2

open Idealize.ShloMosaic.ValueIdx
open scoped BigOperators

/-- The zero offsets of a whole-block rectangle. -/
theorem hz : (![0, 0] : Fin 2 → Nat) = fun _ => 0 := funext fun a => by fin_cases a <;> rfl

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The product's operand indices: at output index `i` and contraction index `q` the left operand is read at
    `(i 0, q)` and the right at `(q, i 1)`. -/

theorem lhs_0 (i : S5000x64.Idx) (q : dot_S5000x96_S96x64_S5000x64_1_0_0_1_n_n.contr.Idx) :
    (dot_S5000x96_S96x64_S5000x64_1_0_0_1_n_n.lhsIdx i q 0).val = (i 0).val := by
  unfold DotDims.lhsIdx
  rw [dif_neg (show ¬(0 : Fin S5000x96.rank) ∈ dot_S5000x96_S96x64_S5000x64_1_0_0_1_n_n.lhsBatch by decide), dif_pos (show (0 : Fin S5000x96.rank) ∈ dot_S5000x96_S96x64_S5000x64_1_0_0_1_n_n.lhsNonContracting by decide)]
  rfl
theorem lhs_1 (i : S5000x64.Idx) (q : dot_S5000x96_S96x64_S5000x64_1_0_0_1_n_n.contr.Idx) :
    (dot_S5000x96_S96x64_S5000x64_1_0_0_1_n_n.lhsIdx i q 1).val = (q ⟨0, by decide⟩).val :=
  dot_S5000x96_S96x64_S5000x64_1_0_0_1_n_n.lhsIdx_val_of_single rfl i q
theorem rhs_0 (i : S5000x64.Idx) (q : dot_S5000x96_S96x64_S5000x64_1_0_0_1_n_n.contr.Idx) :
    (dot_S5000x96_S96x64_S5000x64_1_0_0_1_n_n.rhsIdx i q 0).val = (q ⟨0, by decide⟩).val :=
  dot_S5000x96_S96x64_S5000x64_1_0_0_1_n_n.rhsIdx_val_of_single rfl i q
theorem rhs_1 (i : S5000x64.Idx) (q : dot_S5000x96_S96x64_S5000x64_1_0_0_1_n_n.contr.Idx) :
    (dot_S5000x96_S96x64_S5000x64_1_0_0_1_n_n.rhsIdx i q 1).val = (i 1).val := by
  unfold DotDims.rhsIdx
  rw [dif_neg (show ¬(1 : Fin S96x64.rank) ∈ dot_S5000x96_S96x64_S5000x64_1_0_0_1_n_n.rhsBatch by decide), dif_pos (show (1 : Fin S96x64.rank) ∈ dot_S5000x96_S96x64_S5000x64_1_0_0_1_n_n.rhsNonContracting by decide)]
  rfl

/-- The product into the zero block, at `(r, j)`: the sum over `k` of the left block at `(r, k)` times the right at `(k, j)`. -/
theorem matmul_apply (a : FVec Ideal S5000x96 .bf16) (b : FVec Ideal S96x64 .bf16) (r : Fin 5000) (j : Fin 64) :
    matmul dot_S5000x96_S96x64_S5000x64_1_0_0_1_n_n none a b (constant S5000x64 .f32 0x00000000#32) (ix2 r j)
      = ∑ k : Fin 96, a (ix2 r k) * b (ix2 k j) := by
  simp only [matmul]
  rw [Ideal.matmul_constant_zero_apply, ← Equiv.sum_comp (ValueIdx.contrEquiv1 dot_S5000x96_S96x64_S5000x64_1_0_0_1_n_n 96 rfl rfl).symm]
  refine Finset.sum_congr rfl fun k _ => ?_
  have hk := ValueIdx.contrEquiv1_symm_val dot_S5000x96_S96x64_S5000x64_1_0_0_1_n_n 96 rfl rfl k
  have el : dot_S5000x96_S96x64_S5000x64_1_0_0_1_n_n.lhsIdx (ix2 r j) ((ValueIdx.contrEquiv1 dot_S5000x96_S96x64_S5000x64_1_0_0_1_n_n 96 rfl rfl).symm k) = ix2 r k := funext fun a => Fin.ext (by
    match a with
    | ⟨0, _⟩ => exact lhs_0 _ _
    | ⟨1, _⟩ => exact (lhs_1 _ _).trans hk)
  have er : dot_S5000x96_S96x64_S5000x64_1_0_0_1_n_n.rhsIdx (ix2 r j) ((ValueIdx.contrEquiv1 dot_S5000x96_S96x64_S5000x64_1_0_0_1_n_n 96 rfl rfl).symm k) = ix2 k j := funext fun a => Fin.ext (by
    match a with
    | ⟨0, _⟩ => exact (rhs_0 _ _).trans hk
    | ⟨1, _⟩ => exact rhs_1 _ _)
  rw [el, er]

/-- The body's arithmetic at `(r, j)`: the activated combination of the row's blocks, times the weight's column. -/
theorem pay_apply (v0 : Vec Ideal S5000x96 .f32) (v2 : Vec Ideal S5000x1 .f32) (v4 : Vec Ideal S5000x96 .f32)
    (v9 : Vec Ideal S1x96 .f32) (v16 : Vec Ideal S96x64 .f32) (r : Fin 5000) (j : Fin 64) :
    k2_pay1 v0 v2 v4 v9 v16 (ix2 r j)
      = ∑ k : Fin 96, max (v0 (ix2 r k) + v2 (ix2 r (0 : Fin 1)) * v4 (ix2 r k) + v9 (ix2 (0 : Fin 1) k)) 0 * v16 (ix2 k j) := by
  unfold k2_pay1
  refine (matmul_apply _ _ r j).trans ?_
  refine Finset.sum_congr rfl fun k _ => ?_
  rw [truncf_apply, truncf_apply, maximumf_apply, addf_apply, addf_apply, mulf_apply, broadcast_apply,
    shapeCast_self, shapeCast_self, shapeCast_self, shapeCast_self,
    broadcastTo_a1_ab_apply, broadcastTo_1b_ab_apply]
  show max _ (Ideal.ofBits .f32 0x00000000#32) * _ = _
  rw [Ideal.ofBits_zero_f32]

/-- The index maps over the grid: a row window's block at point `t` is block `(t, 0)` of its array; the bias row's and the
    weight's is block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- One entry of the output block from the blocks of one point: if the row blocks are rows `R` of their arrays and the
    bias row's and the weight's blocks are those arrays, the body's value at `(r, j)` is the specification's at `(R, j)`. -/
theorem point (A H : S50000x96.Idx → EReal) (D : S50000x1.Idx → EReal) (B : S1x96.Idx → EReal) (W : S96x64.Idx → EReal)
    (x0 x1 : Vec Ideal S5000x96 .f32) (x2 : Vec Ideal S5000x1 .f32) (x3 : Vec Ideal S1x96 .f32) (x4 : Vec Ideal S96x64 .f32)
    (r : Fin 5000) (j : Fin 64) (R : Fin 50000)
    (h0 : ∀ k : Fin 96, x0 (ix2 r k) = A (ix2 R k))
    (h1 : ∀ k : Fin 96, x1 (ix2 r k) = H (ix2 R k))
    (h2 : x2 (ix2 r (0 : Fin 1)) = D (ix2 R (0 : Fin 1)))
    (h3 : ∀ k : Fin 96, x3 (ix2 (0 : Fin 1) k) = B (ix2 (0 : Fin 1) k))
    (h4 : ∀ k : Fin 96, x4 (ix2 k j) = W (ix2 k j)) :
    k2_pay1 x0 x2 x1 x3 x4 (ix2 r j) = Cert.Spec.combMM A H D B W (ix2 R j) := by
  rw [pay_apply]
  show _ = ∑ k : Fin 96, Cert.Spec.act A H D B R k * W (ix2 k j)
  refine Finset.sum_congr rfl fun k _ => ?_
  rw [h0, h1, h2, h3, h4]
  rfl

/-- What point `t` writes back is block `t` of the specification's array of the arrays the region finds. -/
theorem flushed_eq (c : Dev nD) (t : Fin cfg2.N) :
    (dat2 (F := Ideal) V c).flushed 5 t = ((cfg2.win 5).blk t).view.read (Elt Ideal)
      (Cert.Spec.combMM (V c main_v44) (V c main_v38) (V c main_v13) (V c main_v45) (V c main_arg6)) := by
  show (cfg2.win 5).cut (grid2.coords t) ((dat2 V c).after 5 t) = _
  rw [after2_5]
  unfold out2_5
  rw [View.canon_unit_zero hz]
  simp only [View.ld_unit_zero (S := S5000x96) hz, View.ld_unit_zero (S := S5000x1) hz, View.ld_unit_zero (S := S1x96) hz,
    View.ld_unit_zero (S := S96x64) hz]
  obtain ⟨e00, e01, e10, e11, e20, e21, e30, e31, e40, e41, e50, e51⟩ := idx_facts t
  have ht : t.val < 10 := Nat.lt_of_lt_of_eq t.isLt (show cfg2.N = 10 from N_2)
  funext y
  obtain ⟨r, j, rfl⟩ : ∃ (r : Fin 5000) (j : Fin 64), y = ix2 r j := ⟨y 0, y 1, eq_ix2 y⟩
  have hr : r.val < 5000 := r.isLt
  have hj : j.val < 64 := j.isLt
  have hemb : ((cfg2.win 5).blk t).view.emb (ix2 r j) = ix2 (⟨t.val * 5000 + r.val, by omega⟩ : Fin 50000) j := by
    funext a; apply Fin.ext
    match a with
    | ⟨0, _⟩ => show win2_5.index t (0 : Fin 2) * 5000 + 1 * r.val = t.val * 5000 + r.val; omega
    | ⟨1, _⟩ => show win2_5.index t (1 : Fin 2) * 64 + 1 * j.val = j.val; omega
  show k2_pay1 (iblk2 V c 0 t) (iblk2 V c 2 t) (iblk2 V c 1 t) (iblk2 V c 3 t) (iblk2 V c 4 t) (ix2 r j)
    = Cert.Spec.combMM (V c main_v44) (V c main_v38) (V c main_v13) (V c main_v45) (V c main_arg6) (((cfg2.win 5).blk t).view.emb (ix2 r j))
  rw [hemb]
  refine point _ _ _ _ _ _ _ _ _ _ r j _ (fun k => ?_) (fun k => ?_) ?_ (fun k => ?_) (fun k => ?_)
  · have hk : k.val < 96 := k.isLt
    show V c main_v44 (((cfg2.win 0).blk t).view.emb (ix2 r k)) = V c main_v44 _
    refine congrArg (V c main_v44) (funext fun a => Fin.ext ?_)
    match a with
    | ⟨0, _⟩ => show win2_0.index t (0 : Fin 2) * 5000 + 1 * r.val = t.val * 5000 + r.val; omega
    | ⟨1, _⟩ => show win2_0.index t (1 : Fin 2) * 96 + 1 * k.val = k.val; omega
  · have hk : k.val < 96 := k.isLt
    show V c main_v38 (((cfg2.win 1).blk t).view.emb (ix2 r k)) = V c main_v38 _
    refine congrArg (V c main_v38) (funext fun a => Fin.ext ?_)
    match a with
    | ⟨0, _⟩ => show win2_1.index t (0 : Fin 2) * 5000 + 1 * r.val = t.val * 5000 + r.val; omega
    | ⟨1, _⟩ => show win2_1.index t (1 : Fin 2) * 96 + 1 * k.val = k.val; omega
  · show V c main_v13 (((cfg2.win 2).blk t).view.emb (ix2 r (0 : Fin 1))) = V c main_v13 _
    refine congrArg (V c main_v13) (funext fun a => Fin.ext ?_)
    match a with
    | ⟨0, _⟩ => show win2_2.index t (0 : Fin 2) * 5000 + 1 * r.val = t.val * 5000 + r.val; omega
    | ⟨1, _⟩ => show win2_2.index t (1 : Fin 2) * 1 + 1 * 0 = 0; omega
  · have hk : k.val < 96 := k.isLt
    show V c main_v45 (((cfg2.win 3).blk t).view.emb (ix2 (0 : Fin 1) k)) = V c main_v45 _
    refine congrArg (V c main_v45) (funext fun a => Fin.ext ?_)
    match a with
    | ⟨0, _⟩ => show win2_3.index t (0 : Fin 2) * 1 + 1 * 0 = 0; omega
    | ⟨1, _⟩ => show win2_3.index t (1 : Fin 2) * 96 + 1 * k.val = k.val; omega
  · have hk : k.val < 96 := k.isLt
    show V c main_arg6 (((cfg2.win 4).blk t).view.emb (ix2 k j)) = V c main_arg6 _
    refine congrArg (V c main_arg6) (funext fun a => Fin.ext ?_)
    match a with
    | ⟨0, _⟩ => show win2_4.index t (0 : Fin 2) * 96 + 1 * k.val = k.val; omega
    | ⟨1, _⟩ => show win2_4.index t (1 : Fin 2) * 64 + 1 * j.val = j.val; omega

/-- An index of the output array is in point `t`'s block iff each coordinate is in the block's range on its axis. -/
theorem mem_blk (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v46).slice (win2_5.rect t)).set ↔ _
  rw [View.set_slice_whole, Rect.mem_set_unit]
  exact Iff.rfl

/-- Every index of the output array is in some point's block: row `r` is in the block of point `r / 5000`. -/
theorem cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  have hq : (i 0).val / 5000 < cfg2.N := by rw [hN]; omega
  refine ⟨⟨(i 0).val / 5000, hq⟩, flush2_5 _, ?_⟩
  rw [mem_blk]
  obtain ⟨-, -, -, -, -, -, -, -, -, -, e50, e51⟩ := idx_facts ⟨(i 0).val / 5000, hq⟩
  have e50' : win2_5.index ⟨(i 0).val / 5000, hq⟩ (0 : Fin 2) = (i 0).val / 5000 := e50
  intro a
  match a with
  | ⟨0, _⟩ =>
    show win2_5.index ⟨(i 0).val / 5000, hq⟩ (0 : Fin 2) * 5000 ≤ (i 0).val ∧ (i 0).val < win2_5.index ⟨(i 0).val / 5000, hq⟩ (0 : Fin 2) * 5000 + 5000
    omega
  | ⟨1, _⟩ =>
    show win2_5.index ⟨(i 0).val / 5000, hq⟩ (1 : Fin 2) * 64 ≤ (i 1).val ∧ (i 1).val < win2_5.index ⟨(i 0).val / 5000, hq⟩ (1 : Fin 2) * 64 + 64
    omega

end R2

/-- The third region's output array after the run: the activated layer times the weight, of the arrays the region finds. -/
theorem region2_value (c : Dev nD) :
    (dat2 (F := Ideal) V c).arrAt 5 cfg2.N
      = Cert.Spec.combMM (V c main_v44) (V c main_v38) (V c main_v13) (V c main_v45) (V c main_arg6) :=
  (dat2 (F := Ideal) V c).arrAt_eq_of_cover 5
    (Cert.Spec.combMM (V c main_v44) (V c main_v38) (V c main_v13) (V c main_v45) (V c main_arg6))
    (fun t _ => R2.flushed_eq V c t) R2.cover

end Cert.KernelIdeal.RegionValue

end
-- ==== Proof.KReg3.lean ====
/-
  The last tiled stage: the layer that is neither activated nor multiplied, one block of 5000 rows per grid point.

  At grid point t the stage reads rows 5000 t … 5000 t + 4999 of the aggregate, of the features and of the degree column,
  and the one bias row, and writes the same rows of the output. Entry (r, k) of a block's result is
  agg(r, k) + dcol(r, 0) · h(r, k) + brow(0, k) over the block's rows; a block's row r is row 5000 t + r of each array and
  the bias row is the same at every point, so the block written at point t is block t of `Spec.comb agg h dcol brow`.
  The ten blocks tile the 50000 rows (row r lies in the block of point r / 5000), so the array ends holding that function.
-/
import proofs.«405272_j62852551410248_3_alg».proof.Proof.Gen.KernelIdeal.Frame
import proofs.«405272_j62852551410248_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace R3

theorem hz : (![0, 0] : Fin 2 → Nat) = fun _ => 0 := funext fun a => by fin_cases a <;> rfl

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The last layer's block at an index: the aggregate, plus the row's degree factor times the feature, plus the bias. -/
theorem pay_apply (x0 : Vec Ideal S5000x64 .f32) (x2 : Vec Ideal S5000x1 .f32) (x1 : Vec Ideal S5000x64 .f32)
    (x3 : Vec Ideal S1x64 .f32) (r : Fin 5000) (k : Fin 64) :
    k3_pay1 x0 x2 x1 x3 (ix2 r k) = x0 (ix2 r k) + x2 (ix2 r (0 : Fin 1)) * x1 (ix2 r k) + x3 (ix2 (0 : Fin 1) k) := by
  unfold k3_pay1
  simp only [addf_apply, mulf_apply, shapeCast_self]
  rw [broadcastTo_a1_ab_apply, broadcastTo_1b_ab_apply]

/-- The index maps, decided once over the ten grid points: the three row windows move with the output's row block at
    block index t, the bias row's block stays at (0, 0). -/
theorem idx_facts : ∀ t : Fin cfg3.N, win3_0.index t (0 : Fin 2) = win3_4.index t (0 : Fin 2)
    ∧ win3_0.index t (1 : Fin 2) = win3_4.index t (1 : Fin 2)
    ∧ win3_1.index t (0 : Fin 2) = win3_4.index t (0 : Fin 2)
    ∧ win3_1.index t (1 : Fin 2) = win3_4.index t (1 : Fin 2)
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

theorem flushed_eq (c : Dev nD) (t : Fin cfg3.N) :
    (dat3 (F := Ideal) V c).flushed 4 t
      = ((cfg3.win 4).blk t).view.read (Elt Ideal)
          (Cert.Spec.comb (V c main_v52) (V c main_v46) (V c main_v13) (V c main_v53)) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts t
  funext y
  obtain ⟨r, k, rfl⟩ : ∃ (r : Fin 5000) (k : Fin 64), y = ix2 r k := ⟨y 0, y 1, eq_ix2 y⟩
  show k3_pay1 (iblk3 V c 0 t) (iblk3 V c 2 t) (iblk3 V c 1 t) (iblk3 V c 3 t) (ix2 r k)
    = Cert.Spec.comb (V c main_v52) (V c main_v46) (V c main_v13) (V c main_v53) (((cfg3.win 4).blk t).view.emb (ix2 r k))
  refine (pay_apply _ _ _ _ r k).trans ?_
  unfold Cert.Spec.comb Cert.Spec.pre
  have h0 : iblk3 V c 0 t (ix2 r k)
      = V c main_v52 (ix2 (((cfg3.win 4).blk t).view.emb (ix2 r k) 0) (((cfg3.win 4).blk t).view.emb (ix2 r k) 1)) := by
    show V c main_v52 (((cfg3.win 0).blk t).view.emb (ix2 r k))
      = V c main_v52 (ix2 (((cfg3.win 4).blk t).view.emb (ix2 r k) 0) (((cfg3.win 4).blk t).view.emb (ix2 r k) 1))
    refine congrArg (V c main_v52) (funext fun a => Fin.ext ?_)
    match a with
    | ⟨0, _⟩ =>
      show win3_0.index t (0 : Fin 2) * 5000 + 1 * r.val = win3_4.index t (0 : Fin 2) * 5000 + 1 * r.val
      rw [e0]
    | ⟨1, _⟩ =>
      show win3_0.index t (1 : Fin 2) * 64 + 1 * k.val = win3_4.index t (1 : Fin 2) * 64 + 1 * k.val
      rw [e1]
  have h1 : iblk3 V c 1 t (ix2 r k)
      = V c main_v46 (ix2 (((cfg3.win 4).blk t).view.emb (ix2 r k) 0) (((cfg3.win 4).blk t).view.emb (ix2 r k) 1)) := by
    show V c main_v46 (((cfg3.win 1).blk t).view.emb (ix2 r k))
      = V c main_v46 (ix2 (((cfg3.win 4).blk t).view.emb (ix2 r k) 0) (((cfg3.win 4).blk t).view.emb (ix2 r k) 1))
    refine congrArg (V c main_v46) (funext fun a => Fin.ext ?_)
    match a with
    | ⟨0, _⟩ =>
      show win3_1.index t (0 : Fin 2) * 5000 + 1 * r.val = win3_4.index t (0 : Fin 2) * 5000 + 1 * r.val
      rw [e2]
    | ⟨1, _⟩ =>
      show win3_1.index t (1 : Fin 2) * 64 + 1 * k.val = win3_4.index t (1 : Fin 2) * 64 + 1 * k.val
      rw [e3]
  have h2 : iblk3 V c 2 t (ix2 r (0 : Fin 1))
      = V c main_v13 (ix2 (((cfg3.win 4).blk t).view.emb (ix2 r k) 0) (0 : Fin 1)) := by
    show V c main_v13 (((cfg3.win 2).blk t).view.emb (ix2 r (0 : Fin 1)))
      = V c main_v13 (ix2 (((cfg3.win 4).blk t).view.emb (ix2 r k) 0) (0 : Fin 1))
    refine congrArg (V c main_v13) (funext fun a => Fin.ext ?_)
    match a with
    | ⟨0, _⟩ =>
      show win3_2.index t (0 : Fin 2) * 5000 + 1 * r.val = win3_4.index t (0 : Fin 2) * 5000 + 1 * r.val
      rw [e4]
    | ⟨1, _⟩ =>
      show win3_2.index t (1 : Fin 2) * 1 + 1 * 0 = 0
      rw [e5]
  have h3 : iblk3 V c 3 t (ix2 (0 : Fin 1) k)
      = V c main_v53 (ix2 (0 : Fin 1) (((cfg3.win 4).blk t).view.emb (ix2 r k) 1)) := by
    show V c main_v53 (((cfg3.win 3).blk t).view.emb (ix2 (0 : Fin 1) k))
      = V c main_v53 (ix2 (0 : Fin 1) (((cfg3.win 4).blk t).view.emb (ix2 r k) 1))
    refine congrArg (V c main_v53) (funext fun a => Fin.ext ?_)
    match a with
    | ⟨0, _⟩ =>
      show win3_3.index t (0 : Fin 2) * 1 + 1 * 0 = 0
      rw [e6]
    | ⟨1, _⟩ =>
      show win3_3.index t (1 : Fin 2) * 64 + 1 * k.val = win3_4.index t (1 : Fin 2) * 64 + 1 * k.val
      rw [e7, e9]
  rw [h0, h1, h2, h3]

/-- An index of the output array is in point t's block iff each coordinate is in the block's range on its axis. -/
theorem mem_blk (t : Fin cfg3.N) (i : S50000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v54).slice (win3_4.rect t)).set ↔ _
  rw [View.set_slice_whole, Rect.mem_set_unit]
  exact Iff.rfl

/-- Row r of the output array lies in the block of grid point r / 5000. -/
theorem cover (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 10 := N_3
  have ht : (i 0).val / 5000 < cfg3.N := by rw [hN]; omega
  refine ⟨⟨(i 0).val / 5000, ht⟩, flush3_4 _, ?_⟩
  rw [mem_blk]
  obtain ⟨e0, e1, e2, e3, e4, e5, e6, e7, e8, e9⟩ := idx_facts ⟨(i 0).val / 5000, ht⟩
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e8]
    show (i 0).val / 5000 * 5000 ≤ (i 0).val ∧ (i 0).val < (i 0).val / 5000 * 5000 + 5000
    omega
  | ⟨1, _⟩ =>
    show win3_4.index ⟨(i 0).val / 5000, ht⟩ (1 : Fin 2) * 64 ≤ (i 1).val
      ∧ (i 1).val < win3_4.index ⟨(i 0).val / 5000, ht⟩ (1 : Fin 2) * 64 + 64
    rw [e9]
    omega

end R3

/-- The output array after the ten grid points: every row block written once, each holding its rows of the last layer. -/
theorem region3_value (c : Dev nD) :
    (dat3 (F := Ideal) V c).arrAt 4 cfg3.N
      = Cert.Spec.comb (V c main_v52) (V c main_v46) (V c main_v13) (V c main_v53) :=
  (dat3 (F := Ideal) V c).arrAt_eq_of_cover 4
    (Cert.Spec.comb (V c main_v52) (V c main_v46) (V c main_v13) (V c main_v53))
    (fun t _ => R3.flushed_eq V c t) R3.cover

end Cert.KernelIdeal.RegionValue

end
-- ==== Proof.RefStages.lean ====
import proofs.«405272_j62852551410248_3_alg».proof.Proof.Gen.ReferenceIdeal.Read
import proofs.«405272_j62852551410248_3_alg».proof.Proof.Spec
import Idealize.ShloMosaic.Lib.Pipeline.Value
import Idealize.ShloMosaic.Lib.ValueIdx
import Idealize.ShloMosaic.Lib.ValueLayout
import Idealize.ShloMosaic.PureOps.Ideal.Laws

/-
  The reference's four dense stages, each as the specification's function of the stages before it.

  The reference computes, layer by layer, a matrix product, then (aggregate + squared inverse-square-root degree · features
  + bias), its positive part, and the next product. Read at an entry (r, c), every one of these host operations is an
  elementwise operation, a broadcast of a column (read at (r, 0)) or of a row (read at (0, k)), or a contraction over the
  96 inner coordinates. So each stage, entry by entry, is the specification's formula; the neighbourhood aggregates, the
  degree column and the bias rows are kept whole, as arrays.
-/

noncomputable section

namespace Cert.ReferenceIdeal.RefStages

open Cert.ReferenceIdeal Cert.ReferenceIdeal.Read Idealize.ShloMosaic

/-! ## Where each operation reads its operands, by coordinates -/

section Indices

open Idealize.ShloMosaic.ValueIdx

/-- The first product reads its left factor at (row, inner coordinate) … -/
theorem lidx12 (r : Fin 50000) (c k : Fin 96) : lidx_main_v12 (ix2 r c) k = ix2 r k :=
  funext fun a => Fin.ext (by match a with | ⟨0, _⟩ => rfl | ⟨1, _⟩ => rfl)
/-- … and its right factor at (inner coordinate, column). -/
theorem ridx12 (r : Fin 50000) (c k : Fin 96) : ridx_main_v12 (ix2 r c) k = ix2 k c :=
  funext fun a => Fin.ext (by match a with | ⟨0, _⟩ => rfl | ⟨1, _⟩ => rfl)

/-- The second product: left factor at (row, inner coordinate) … -/
theorem lidx50 (r : Fin 50000) (c k : Fin 96) : lidx_main_v50 (ix2 r c) k = ix2 r k :=
  funext fun a => Fin.ext (by match a with | ⟨0, _⟩ => rfl | ⟨1, _⟩ => rfl)
/-- … right factor at (inner coordinate, column). -/
theorem ridx50 (r : Fin 50000) (c k : Fin 96) : ridx_main_v50 (ix2 r c) k = ix2 k c :=
  funext fun a => Fin.ext (by match a with | ⟨0, _⟩ => rfl | ⟨1, _⟩ => rfl)
/-- The degree column spread over the 96 columns is read at (row, 0). -/
theorem idx43 (r : Fin 50000) (k : Fin 96) : idx_main_v43 (ix2 r k) = ix2 r (0 : Fin 1) :=
  funext fun a => Fin.ext (by match a with | ⟨0, _⟩ => rfl | ⟨1, _⟩ => rfl)
/-- The bias row spread over the rows is read at (0, column). -/
theorem idx47 (r : Fin 50000) (k : Fin 96) : idx_main_v47 (ix2 r k) = ix2 (0 : Fin 1) k :=
  funext fun a => Fin.ext (by match a with | ⟨0, _⟩ => rfl | ⟨1, _⟩ => rfl)

/-- The third product (96 inner coordinates, 64 columns): left factor at (row, inner coordinate) … -/
theorem lidx88 (r : Fin 50000) (c : Fin 64) (k : Fin 96) : lidx_main_v88 (ix2 r c) k = ix2 r k :=
  funext fun a => Fin.ext (by match a with | ⟨0, _⟩ => rfl | ⟨1, _⟩ => rfl)
/-- … right factor at (inner coordinate, column). -/
theorem ridx88 (r : Fin 50000) (c : Fin 64) (k : Fin 96) : ridx_main_v88 (ix2 r c) k = ix2 k c :=
  funext fun a => Fin.ext (by match a with | ⟨0, _⟩ => rfl | ⟨1, _⟩ => rfl)
/-- Second layer: the degree column is read at (row, 0) … -/
theorem idx81 (r : Fin 50000) (k : Fin 96) : idx_main_v81 (ix2 r k) = ix2 r (0 : Fin 1) :=
  funext fun a => Fin.ext (by match a with | ⟨0, _⟩ => rfl | ⟨1, _⟩ => rfl)
/-- … and the bias row at (0, column). -/
theorem idx85 (r : Fin 50000) (k : Fin 96) : idx_main_v85 (ix2 r k) = ix2 (0 : Fin 1) k :=
  funext fun a => Fin.ext (by match a with | ⟨0, _⟩ => rfl | ⟨1, _⟩ => rfl)

/-- Last layer (64 columns): the degree column is read at (row, 0) … -/
theorem idx119 (r : Fin 50000) (c : Fin 64) : idx_main_v119 (ix2 r c) = ix2 r (0 : Fin 1) :=
  funext fun a => Fin.ext (by match a with | ⟨0, _⟩ => rfl | ⟨1, _⟩ => rfl)
/-- … and the bias row at (0, column). -/
theorem idx123 (r : Fin 50000) (c : Fin 64) : idx_main_v123 (ix2 r c) = ix2 (0 : Fin 1) c :=
  funext fun a => Fin.ext (by match a with | ⟨0, _⟩ => rfl | ⟨1, _⟩ => rfl)

end Indices

variable (x0 : (⟨S50000x96, .f32⟩ : BufTy).Contents (Elt Ideal)) (x1 : (⟨S2x800000, .i32⟩ : BufTy).Contents (Elt Ideal))
  (x2 : (⟨S96x96, .f32⟩ : BufTy).Contents (Elt Ideal)) (x3 : (⟨S96, .f32⟩ : BufTy).Contents (Elt Ideal))
  (x4 : (⟨S96x96, .f32⟩ : BufTy).Contents (Elt Ideal)) (x5 : (⟨S96, .f32⟩ : BufTy).Contents (Elt Ideal))
  (x6 : (⟨S96x64, .f32⟩ : BufTy).Contents (Elt Ideal)) (x7 : (⟨S64, .f32⟩ : BufTy).Contents (Elt Ideal))

/-! ## The four stages -/

/-- The first stage is the plain product of the features with the first weight matrix. -/
theorem h0_eq : val_main_v12 (F := Ideal) x0 x2 = Cert.Spec.mm x0 x2 := by
  funext i
  obtain ⟨r, c, rfl⟩ : ∃ (r : Fin 50000) (c : Fin 96), i = ValueIdx.ix2 r c := ⟨i 0, i 1, ValueIdx.eq_ix2 i⟩
  rw [val_main_v12_apply]
  simp only [Cert.Spec.mm]
  refine Finset.sum_congr rfl fun k _ => ?_
  rw [lidx12, ridx12]

/-- The second stage: the first layer's activation (positive part of aggregate + degree · product + bias), times the
    second weight matrix. -/
theorem h1_eq : val_main_v50 (F := Ideal) x0 x1 x2 x3 x4
    = Cert.Spec.combMM (val_main_v40 (F := Ideal) x0 x1 x2) (val_main_v12 (F := Ideal) x0 x2) (val_main_v42 (F := Ideal) x1)
        (val_main_v46 (F := Ideal) x3) x4 := by
  funext i
  obtain ⟨r, c, rfl⟩ : ∃ (r : Fin 50000) (c : Fin 96), i = ValueIdx.ix2 r c := ⟨i 0, i 1, ValueIdx.eq_ix2 i⟩
  rw [val_main_v50_apply]
  simp only [Cert.Spec.combMM, Cert.Spec.act, Cert.Spec.pre]
  refine Finset.sum_congr rfl fun k _ => ?_
  rw [lidx50, ridx50, val_main_v49_apply, val_main_v48_apply, val_main_v45_apply, val_main_v44_apply, val_main_v43_apply,
    val_main_v47_apply, val_main_call0_v0_apply, val_main_call0_cst_apply, idx43, idx47]
  simp only [Ideal.ofBits_def, Ideal.ofBits_zero_f32, Ideal.addf_def, Ideal.mulf_def, Ideal.maximumf_def]

/-- The third stage: the second layer's activation, times the third weight matrix (96 by 64). -/
theorem h2_eq : val_main_v88 (F := Ideal) x0 x1 x2 x3 x4 x5 x6
    = Cert.Spec.combMM (val_main_v78 (F := Ideal) x0 x1 x2 x3 x4) (val_main_v50 (F := Ideal) x0 x1 x2 x3 x4) (val_main_v80 (F := Ideal) x1)
        (val_main_v84 (F := Ideal) x5) x6 := by
  funext i
  obtain ⟨r, c, rfl⟩ : ∃ (r : Fin 50000) (c : Fin 64), i = ValueIdx.ix2 r c := ⟨i 0, i 1, ValueIdx.eq_ix2 i⟩
  rw [val_main_v88_apply]
  simp only [Cert.Spec.combMM, Cert.Spec.act, Cert.Spec.pre]
  refine Finset.sum_congr rfl fun k _ => ?_
  rw [lidx88, ridx88, val_main_v87_apply, val_main_v86_apply, val_main_v83_apply, val_main_v82_apply, val_main_v81_apply,
    val_main_v85_apply, val_main_call1_v0_apply, val_main_call1_cst_apply, idx81, idx85]
  simp only [Ideal.ofBits_def, Ideal.ofBits_zero_f32, Ideal.addf_def, Ideal.mulf_def, Ideal.maximumf_def]

/-- The last stage is the third layer's pre-activation itself: no positive part, no further product. -/
theorem out_eq : val_main_v124 (F := Ideal) x0 x1 x2 x3 x4 x5 x6 x7
    = Cert.Spec.comb (val_main_v116 (F := Ideal) x0 x1 x2 x3 x4 x5 x6) (val_main_v88 (F := Ideal) x0 x1 x2 x3 x4 x5 x6)
        (val_main_v118 (F := Ideal) x1) (val_main_v122 (F := Ideal) x7) := by
  funext i
  obtain ⟨r, c, rfl⟩ : ∃ (r : Fin 50000) (c : Fin 64), i = ValueIdx.ix2 r c := ⟨i 0, i 1, ValueIdx.eq_ix2 i⟩
  rw [val_main_v124_apply, val_main_v121_apply, val_main_v120_apply, val_main_v119_apply, val_main_v123_apply, idx119, idx123]
  simp only [Cert.Spec.comb, Cert.Spec.pre, Ideal.addf_def, Ideal.mulf_def]

end Cert.ReferenceIdeal.RefStages

end
-- ==== Proof.KStages.lean ====
/-
  The kernel's four tiled stages, each as the reference's stage of the same arguments.

  A tiled stage leaves in its output array the specification's function of the arrays its windows stage.  Those arrays are,
  by the statements about the host operations and about the buffers no segment touches, the reference's stages; and the
  reference's next stage is the same function of them.  So, layer by layer, the kernel's product x·W0, its two combined
  layers and its last layer are the reference's, and the buffer the program returns holds the reference's result.
  All of this is over the extended reals, and under the one fact the precondition gives: every source id is in [0, 50000).
-/
import proofs.«405272_j62852551410248_3_alg».proof.Proof.KStagesHost
import proofs.«405272_j62852551410248_3_alg».proof.Proof.KReg0
import proofs.«405272_j62852551410248_3_alg».proof.Proof.KReg1
import proofs.«405272_j62852551410248_3_alg».proof.Proof.KReg2
import proofs.«405272_j62852551410248_3_alg».proof.Proof.KReg3
import proofs.«405272_j62852551410248_3_alg».proof.Proof.RefStages

noncomputable section

namespace Cert.KernelIdeal.Stages

open Cert.KernelIdeal Cert.KernelIdeal.Gen Cert.KernelIdeal.Carry Cert.KernelIdeal.HostStages Cert.KernelIdeal.RegionValue
open Idealize.ShloMosaic Idealize.ShloMosaic.TcCoe Idealize.SL.Sem Idealize.ShloMosaic.StableHlo
open Cert.ReferenceIdeal.Read Cert.ReferenceIdeal.RefStages

variable (m : (ℓ : Loc nD τ sig) → Buf (Elt Ideal) ℓ) (ρ : Dev nD → PrngReg)

/-- The first stage: x·W0. -/
theorem layer0 (c : Dev nD) : W2 m ρ c (Proc.devRef .tc main_v30) = val_main_v12 (F := Ideal) (m ((c : Thread nD τ).loc main_arg0)) (m ((c : Thread nD τ).loc main_arg2)) := by
  refine (W2_arr m ρ c 2).trans ((region0_value (V1 m ρ) c).trans ?_)
  show Cert.Spec.mm (W1 m ρ c (Proc.devRef .tc main_arg0)) (W1 m ρ c (Proc.devRef .tc main_arg2)) = _
  rw [first_arg0 m ρ c, first_arg2 m ρ c, h0_eq]

/-- The second stage: the positive part of layer 0, times W1. -/
theorem layer1 (c : Dev nD)
    (hs : ∀ e, IntOp.cmpi .sge (val_main_v1 (F := Ideal) (m ((c : Thread nD τ).loc main_arg1)) e) 0#32 = 1#1
             ∧ IntOp.cmpi .slt (val_main_v1 (F := Ideal) (m ((c : Thread nD τ).loc main_arg1)) e) 50000#32 = 1#1) :
    W5 m ρ c (Proc.devRef .tc main_v38) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 5).trans ((region1_value (V4 m ρ) c).trans ?_)
  show Cert.Spec.combMM (W4 m ρ c (Proc.devRef .tc main_v36)) (W4 m ρ c (Proc.devRef .tc main_v30)) (W4 m ρ c (Proc.devRef .tc main_v13)) (W4 m ρ c (Proc.devRef .tc main_v37)) (W4 m ρ c (Proc.devRef .tc main_arg4)) = _
  rw [agg0 m ρ c hs (layer0 m ρ c), Eq.trans (h1_v30 m ρ c) (layer0 m ρ c), Eq.trans (h1_v13 m ρ c) (Eq.trans (r0_v13 m ρ c) (first_col m ρ c)), bias0 m ρ c,
    Eq.trans (h1_arg4 m ρ c) (Eq.trans (r0_arg4 m ρ c) (first_arg4 m ρ c)), h1_eq]

/-- The third stage: the positive part of layer 1, times W2. -/
theorem layer2 (c : Dev nD)
    (hs : ∀ e, IntOp.cmpi .sge (val_main_v1 (F := Ideal) (m ((c : Thread nD τ).loc main_arg1)) e) 0#32 = 1#1
             ∧ IntOp.cmpi .slt (val_main_v1 (F := Ideal) (m ((c : Thread nD τ).loc main_arg1)) e) 50000#32 = 1#1) :
    W8 m ρ c (Proc.devRef .tc main_v46) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 5).trans ((region2_value (V7 m ρ) c).trans ?_)
  show Cert.Spec.combMM (W7 m ρ c (Proc.devRef .tc main_v44)) (W7 m ρ c (Proc.devRef .tc main_v38)) (W7 m ρ c (Proc.devRef .tc main_v13)) (W7 m ρ c (Proc.devRef .tc main_v45)) (W7 m ρ c (Proc.devRef .tc main_arg6)) = _
  rw [agg1 m ρ c hs (layer1 m ρ c hs), Eq.trans (h2_v38 m ρ c) (layer1 m ρ c hs), Eq.trans (h2_v13 m ρ c) (Eq.trans (r1_v13 m ρ c) (Eq.trans (h1_v13 m ρ c) (Eq.trans (r0_v13 m ρ c) (Eq.trans (first_col m ρ c) ((col1_eq (m ((c : Thread nD τ).loc main_arg1))).symm))))), bias1 m ρ c,
    Eq.trans (h2_arg6 m ρ c) (Eq.trans (r1_arg6 m ρ c) (Eq.trans (h1_arg6 m ρ c) (Eq.trans (r0_arg6 m ρ c) (first_arg6 m ρ c)))), h2_eq]

/-- The last stage, and the program's result. -/
theorem result (c : Dev nD)
    (hs : ∀ e, IntOp.cmpi .sge (val_main_v1 (F := Ideal) (m ((c : Thread nD τ).loc main_arg1)) e) 0#32 = 1#1
             ∧ IntOp.cmpi .slt (val_main_v1 (F := Ideal) (m ((c : Thread nD τ).loc main_arg1)) e) 50000#32 = 1#1) :
    W11 m ρ c (Proc.devRef .tc main_v54) = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W11_arr m ρ c 4).trans ((region3_value (V10 m ρ) c).trans ?_)
  show Cert.Spec.comb (W10 m ρ c (Proc.devRef .tc main_v52)) (W10 m ρ c (Proc.devRef .tc main_v46)) (W10 m ρ c (Proc.devRef .tc main_v13)) (W10 m ρ c (Proc.devRef .tc main_v53)) = _
  rw [agg2 m ρ c hs (layer2 m ρ c hs), Eq.trans (h3_v46 m ρ c) (layer2 m ρ c hs), Eq.trans (h3_v13 m ρ c) (Eq.trans (r2_v13 m ρ c) (Eq.trans (h2_v13 m ρ c) (Eq.trans (r1_v13 m ρ c) (Eq.trans (h1_v13 m ρ c) (Eq.trans (r0_v13 m ρ c) (Eq.trans (first_col m ρ c) ((col2_eq (m ((c : Thread nD τ).loc main_arg1))).symm))))))), bias2 m ρ c, out_eq]

end Cert.KernelIdeal.Stages

end
-- ==== Proof.lean ====
/-
  A three-layer graph-convolution encoder, tiled, against its plain description: the two compute the same extended reals.

  The encoder takes node features x (50000 × 96), an edge list (2 × 800000 node ids: a row of sources, a row of destinations),
  three weight matrices and three biases.  With deg the in-degree plus one and d = deg^(-1/2), a layer sends features h to
      agg(h·W) + (d·d) ⊙ (h·W) + b,   agg(g)(v) = Σ over edges (s → v) of d(s)·d(v)·g(s),
  the first two layers followed by the positive part; the result is the third layer's output, returned twice.

  The kernel computes x·W0 in one tiled stage (row tiles of 5000), then for each later layer fuses "add the self-loop term and
  the bias, take the positive part" with the NEXT product in one tiled stage, and ends with a stage that only adds.  Degrees,
  coefficients and the three edge aggregations are plain array operations between the stages.  Over the extended reals a
  change of float format is the identity and both kinds of matrix product are the same sum, so stage by stage the kernel's
  arrays are the reference's (`Stages.layer0`, `layer1`, `layer2`, `result`).

  The one place the two programs differ is the gather of a layer's rows at the source ids: the kernel's fills rows whose id is
  out of range, the reference's clamps the id.  They agree exactly where every source id is in [0, 50000): that is the index
  range the claim's precondition states, read back in `PreIdx.src_in_range`; the destination ids enter both programs through
  the same operations and need no condition.

  Each program runs without fault and leaves its arguments as launched; the idealized kernel is the kernel's own text read
  over the extended reals (the idealization rewrote nothing).
-/
import proofs.«405272_j62852551410248_3_alg».proof.Defs
import proofs.«405272_j62852551410248_3_alg».proof.Proof.Gen.Kernel
import proofs.«405272_j62852551410248_3_alg».proof.Proof.Gen.Kernel.Skeleton
import proofs.«405272_j62852551410248_3_alg».proof.Proof.Gen.Kernel.Launch
import proofs.«405272_j62852551410248_3_alg».proof.Proof.Gen.Kernel.Points
import proofs.«405272_j62852551410248_3_alg».proof.Proof.Gen.Kernel.Frame
import proofs.«405272_j62852551410248_3_alg».proof.Proof.Gen.KernelIdeal
import proofs.«405272_j62852551410248_3_alg».proof.Proof.Gen.KernelIdeal.Skeleton
import proofs.«405272_j62852551410248_3_alg».proof.Proof.Gen.KernelIdeal.Launch
import proofs.«405272_j62852551410248_3_alg».proof.Proof.Gen.KernelIdeal.Points
import proofs.«405272_j62852551410248_3_alg».proof.Proof.Gen.KernelIdeal.Frame
import proofs.«405272_j62852551410248_3_alg».proof.Proof.Gen.ReferenceIdeal
import proofs.«405272_j62852551410248_3_alg».proof.Proof.Gen.ReferenceIdeal.Run
import proofs.«405272_j62852551410248_3_alg».proof.Proof.Gen.ReferenceIdeal.Read
import proofs.«405272_j62852551410248_3_alg».proof.Proof.Gen.Pre_finite_inputs
import proofs.«405272_j62852551410248_3_alg».proof.Proof.PreIdx
import proofs.«405272_j62852551410248_3_alg».proof.Proof.KRun
import proofs.«405272_j62852551410248_3_alg».proof.Proof.KStages
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the reference's final stage of those arguments
    in their result buffer. -/
theorem algebraic : Cert.algebraic_KernelIdeal_ReferenceIdeal := by
  intro m ρ m' ρ' hpre hagree
  -- the precondition's index range: every source id is in [0, 50000)
  have hs : ∀ (c : Dev Cert.KernelIdeal.nD) e,
      IntOp.cmpi .sge (Cert.ReferenceIdeal.Read.val_main_v1 (F := Ideal) (m ((c.tc : Thread Cert.KernelIdeal.nD Cert.KernelIdeal.τ).loc Cert.KernelIdeal.main_arg1)) e) 0#32 = 1#1
      ∧ IntOp.cmpi .slt (Cert.ReferenceIdeal.Read.val_main_v1 (F := Ideal) (m ((c.tc : Thread Cert.KernelIdeal.nD Cert.KernelIdeal.τ).loc Cert.KernelIdeal.main_arg1)) e) 50000#32 = 1#1 :=
    fun c e => Cert.PreIdx.src_in_range _ _ _ _ _ _ _ _ (hpre c) e
  refine ⟨fun c => Cert.KernelIdeal.Gen.W11 m ρ c (Proc.devRef .tc Cert.KernelIdeal.main_v54),
    fun c => Cert.KernelIdeal.Gen.W11 m ρ c (Proc.devRef .tc Cert.KernelIdeal.main_v54), ?_, ?_⟩
  · exact (θ_run Cert.KernelIdeal.defs _ _).mono (fun r h c => ⟨(h c).1, (h c).1, (h c).2⟩)
      (Cert.KernelIdeal.GenP.run_results m ρ)
  · have key : ∀ c : Dev Cert.ReferenceIdeal.nD, Cert.ReferenceIdeal.Value.res_main_v124 m' c
        = Cert.KernelIdeal.Gen.W11 m ρ c (Proc.devRef .tc Cert.KernelIdeal.main_v54) := fun c => by
      rw [Cert.ReferenceIdeal.Read.val_main_v124_eq, (hagree c).1, (hagree c).2.1, (hagree c).2.2.1, (hagree c).2.2.2.1,
        (hagree c).2.2.2.2.1, (hagree c).2.2.2.2.2.1, (hagree c).2.2.2.2.2.2.1, (hagree c).2.2.2.2.2.2.2]
      exact (Cert.KernelIdeal.Stages.result m ρ c (hs c)).symm
    exact (θ_run Cert.ReferenceIdeal.defs _ _).mono
      (fun r h c => ⟨(h c).1.trans (key c), (h c).2.1.trans (key c), (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
